-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x203 : Shape := ⟨2, ![131072, 203]⟩
abbrev S175x203 : Shape := ⟨2, ![175, 203]⟩
abbrev S175 : Shape := ⟨1, ![175]⟩
abbrev S150x175 : Shape := ⟨2, ![150, 175]⟩
abbrev S150 : Shape := ⟨1, ![150]⟩
abbrev S128x150 : Shape := ⟨2, ![128, 150]⟩
abbrev S128 : Shape := ⟨1, ![128]⟩
abbrev S80x128 : Shape := ⟨2, ![80, 128]⟩
abbrev S80 : Shape := ⟨1, ![80]⟩
abbrev S48x80 : Shape := ⟨2, ![48, 80]⟩
abbrev S48 : Shape := ⟨1, ![48]⟩
abbrev S_ : Shape := ⟨0, ![]⟩

class Facts : Prop where
  bcast_S_S131072x203 : S_.BroadcastsInDim S131072x203 (![] : Fin 0 → Fin S131072x203.rank)
  reducesTo_S131072x203_S_d0_1 : S131072x203.ReducesTo [0, 1] S_
  h_S_ : 0 < S_.numel
  bcast_S_S175x203 : S_.BroadcastsInDim S175x203 (![] : Fin 0 → Fin S175x203.rank)
  reducesTo_S175x203_S_d0_1 : S175x203.ReducesTo [0, 1] S_
  bcast_S_S175 : S_.BroadcastsInDim S175 (![] : Fin 0 → Fin S175.rank)
  reducesTo_S175_S_d0 : S175.ReducesTo [0] S_
  bcast_S_S150x175 : S_.BroadcastsInDim S150x175 (![] : Fin 0 → Fin S150x175.rank)
  reducesTo_S150x175_S_d0_1 : S150x175.ReducesTo [0, 1] S_
  bcast_S_S150 : S_.BroadcastsInDim S150 (![] : Fin 0 → Fin S150.rank)
  reducesTo_S150_S_d0 : S150.ReducesTo [0] S_
  bcast_S_S128x150 : S_.BroadcastsInDim S128x150 (![] : Fin 0 → Fin S128x150.rank)
  reducesTo_S128x150_S_d0_1 : S128x150.ReducesTo [0, 1] S_
  bcast_S_S128 : S_.BroadcastsInDim S128 (![] : Fin 0 → Fin S128.rank)
  reducesTo_S128_S_d0 : S128.ReducesTo [0] S_
  bcast_S_S80x128 : S_.BroadcastsInDim S80x128 (![] : Fin 0 → Fin S80x128.rank)
  reducesTo_S80x128_S_d0_1 : S80x128.ReducesTo [0, 1] S_
  bcast_S_S80 : S_.BroadcastsInDim S80 (![] : Fin 0 → Fin S80.rank)
  reducesTo_S80_S_d0 : S80.ReducesTo [0] S_
  bcast_S_S48x80 : S_.BroadcastsInDim S48x80 (![] : Fin 0 → Fin S48x80.rank)
  reducesTo_S48x80_S_d0_1 : S48x80.ReducesTo [0, 1] S_
  bcast_S_S48 : S_.BroadcastsInDim S48 (![] : Fin 0 → Fin S48.rank)
  reducesTo_S48_S_d0 : S48.ReducesTo [0] S_

variable [Facts]

def fn_part3 {F : FTy → Type} [FloatOps F] (main_v48 : IVec S_ 1) (main_v49 : FVec F S48 .f32) (main_v50 : FVec F S48 .f32) : IVec S_ 1 :=
  let main_v51 : IVec S48 1 := cmpf .olt main_v49 main_v50
  let main_c_19 : IVec S_ 1 := constantI S_ 1 1#1
  let main_v52 : IVec S_ 1 := (fun x v => Host.reduce IntOp.andi x v reducesTo_S48_S_d0 h_S_) main_v51 main_c_19
  let main_v53 : IVec S_ 1 := andi main_v48 main_v52
  main_v53

def fn_part2 {F : FTy → Type} [FloatOps F] (main_arg7 : FVec F S80x128 .f32) (main_arg8 : FVec F S80 .f32) (main_arg9 : FVec F S48x80 .f32) (main_arg10 : FVec F S48 .f32) (main_v33 : IVec S_ 1) : IVec S_ 1 :=
  let main_v34 : FVec F S80x128 .f32 := Host.absf main_arg7
  let main_cst_12 : FVec F S_ .f32 := constant S_ .f32 0x7F800000#32
  let main_v35 : FVec F S80x128 .f32 := broadcastInDim S80x128 ![] bcast_S_S80x128 main_cst_12
  let main_v36 : IVec S80x128 1 := cmpf .olt main_v34 main_v35
  let main_c_13 : IVec S_ 1 := constantI S_ 1 1#1
  let main_v37 : IVec S_ 1 := (fun x v => Host.reduce IntOp.andi x v reducesTo_S80x128_S_d0_1 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S48x80 .f32 := Host.absf main_arg9
  let main_cst_16 : FVec F S_ .f32 := constant S_ .f32 0x7F800000#32
  let main_v45 : FVec F S48x80 .f32 := broadcastInDim S48x80 ![] bcast_S_S48x80 main_cst_16
  let main_v46 : IVec S48x80 1 := cmpf .olt main_v44 main_v45
  let main_c_17 : IVec S_ 1 := constantI S_ 1 1#1
  let main_v47 : IVec S_ 1 := (fun x v => Host.reduce IntOp.andi x v reducesTo_S48x80_S_d0_1 h_S_) main_v46 main_c_17
  let main_v48 : IVec S_ 1 := andi main_v43 main_v47
  let main_v49 : FVec F S48 .f32 := Host.absf main_arg10
  let main_cst_18 : FVec F S_ .f32 := constant S_ .f32 0x7F800000#32
  let main_v50 : FVec F S48 .f32 := broadcastInDim S48 ![] bcast_S_S48 main_cst_18
  fn_part3 (F := F) main_v48 main_v49 main_v50

def fn_part1 {F : FTy → Type} [FloatOps F] (main_arg4 : FVec F S150 .f32) (main_arg5 : FVec F S128x150 .f32) (main_arg6 : FVec F S128 .f32) (main_arg7 : FVec F S80x128 .f32) (main_arg8 : FVec F S80 .f32) (main_arg9 : FVec F S48x80 .f32) (main_arg10 : FVec F S48 .f32) (main_v13 : IVec S_ 1) (main_v16 : IVec S150x175 1) : IVec S_ 1 :=
  let main_c_5 : IVec S_ 1 := constantI S_ 1 1#1
  let main_v17 : IVec S_ 1 := (fun x v => Host.reduce IntOp.andi x v reducesTo_S150x175_S_d0_1 h_S_) main_v16 main_c_5
  let main_v18 : IVec S_ 1 := andi main_v13 main_v17
  let main_v19 : FVec F S150 .f32 := Host.absf main_arg4
  let main_cst_6 : FVec F S_ .f32 := constant S_ .f32 0x7F800000#32
  let main_v20 : FVec F S150 .f32 := broadcastInDim S150 ![] bcast_S_S150 main_cst_6
  let main_v21 : IVec S150 1 := cmpf .olt main_v19 main_v20
  let main_c_7 : IVec S_ 1 := constantI S_ 1 1#1
  let main_v22 : IVec S_ 1 := (fun x v => Host.reduce IntOp.andi x v reducesTo_S150_S_d0 h_S_) main_v21 main_c_7
  let main_v23 : IVec S_ 1 := andi main_v18 main_v22
  let main_v24 : FVec F S128x150 .f32 := Host.absf main_arg5
  let main_cst_8 : FVec F S_ .f32 := constant S_ .f32 0x7F800000#32
  let main_v25 : FVec F S128x150 .f32 := broadcastInDim S128x150 ![] bcast_S_S128x150 main_cst_8
  let main_v26 : IVec S128x150 1 := cmpf .olt main_v24 main_v25
  let main_c_9 : IVec S_ 1 := constantI S_ 1 1#1
  let main_v27 : IVec S_ 1 := (fun x v => Host.reduce IntOp.andi x v reducesTo_S128x150_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x203 .f32) (main_arg1 : FVec F S175x203 .f32) (main_arg2 : FVec F S175 .f32) (main_arg3 : FVec F S150x175 .f32) (main_arg4 : FVec F S150 .f32) (main_arg5 : FVec F S128x150 .f32) (main_arg6 : FVec F S128 .f32) (main_arg7 : FVec F S80x128 .f32) (main_arg8 : FVec F S80 .f32) (main_arg9 : FVec F S48x80 .f32) (main_arg10 : FVec F S48 .f32) : IVec S_ 1 :=
  let main_v0 : FVec F S131072x203 .f32 := Host.absf main_arg0
  let main_cst : FVec F S_ .f32 := constant S_ .f32 0x7F800000#32
  let main_v1 : FVec F S131072x203 .f32 := broadcastInDim S131072x203 ![] bcast_S_S131072x203 main_cst
  let main_v2 : IVec S131072x203 1 := cmpf .olt main_v0 main_v1
  let main_c : IVec S_ 1 := constantI S_ 1 1#1
  let main_v3 : IVec S_ 1 := (fun x v => Host.reduce IntOp.andi x v reducesTo_S131072x203_S_d0_1 h_S_) main_v2 main_c
  let main_v4 : FVec F S175x203 .f32 := Host.absf main_arg1
  let main_cst_0 : FVec F S_ .f32 := constant S_ .f32 0x7F800000#32
  let main_v5 : FVec F S175x203 .f32 := broadcastInDim S175x203 ![] bcast_S_S175x203 main_cst_0
  let main_v6 : IVec S175x203 1 := cmpf .olt main_v4 main_v5
  let main_c_1 : IVec S_ 1 := constantI S_ 1 1#1
  let main_v7 : IVec S_ 1 := (fun x v => Host.reduce IntOp.andi x v reducesTo_S175x203_S_d0_1 h_S_) main_v6 main_c_1
  let main_v8 : IVec S_ 1 := andi main_v3 main_v7
  let main_v9 : FVec F S175 .f32 := Host.absf main_arg2
  let main_cst_2 : FVec F S_ .f32 := constant S_ .f32 0x7F800000#32
  let main_v10 : FVec F S175 .f32 := broadcastInDim S175 ![] bcast_S_S175 main_cst_2
  let main_v11 : IVec S175 1 := cmpf .olt main_v9 main_v10
  let main_c_3 : IVec S_ 1 := constantI S_ 1 1#1
  let main_v12 : IVec S_ 1 := (fun x v => Host.reduce IntOp.andi x v reducesTo_S175_S_d0 h_S_) main_v11 main_c_3
  let main_v13 : IVec S_ 1 := andi main_v8 main_v12
  let main_v14 : FVec F S150x175 .f32 := Host.absf main_arg3
  let main_cst_4 : FVec F S_ .f32 := constant S_ .f32 0x7F800000#32
  let main_v15 : FVec F S150x175 .f32 := broadcastInDim S150x175 ![] bcast_S_S150x175 main_cst_4
  let main_v16 : IVec S150x175 1 := cmpf .olt main_v14 main_v15
  fn_part1 (F := F) main_arg4 main_arg5 main_arg6 main_arg7 main_arg8 main_arg9 main_arg10 main_v13 main_v16
-- ==== Kernel.lean ====
abbrev S131072x203 : Shape := ⟨2, ![131072, 203]⟩
abbrev S175x203 : Shape := ⟨2, ![175, 203]⟩
abbrev S175 : Shape := ⟨1, ![175]⟩
abbrev S150x175 : Shape := ⟨2, ![150, 175]⟩
abbrev S150 : Shape := ⟨1, ![150]⟩
abbrev S128x150 : Shape := ⟨2, ![128, 150]⟩
abbrev S128 : Shape := ⟨1, ![128]⟩
abbrev S80x128 : Shape := ⟨2, ![80, 128]⟩
abbrev S80 : Shape := ⟨1, ![80]⟩
abbrev S48x80 : Shape := ⟨2, ![48, 80]⟩
abbrev S48 : Shape := ⟨1, ![48]⟩
abbrev S203x175 : Shape := ⟨2, ![203, 175]⟩
abbrev S1x175 : Shape := ⟨2, ![1, 175]⟩
abbrev S175x150 : Shape := ⟨2, ![175, 150]⟩
abbrev S1x150 : Shape := ⟨2, ![1, 150]⟩
abbrev S150x128 : Shape := ⟨2, ![150, 128]⟩
abbrev S1x128 : Shape := ⟨2, ![1, 128]⟩
abbrev S128x80 : Shape := ⟨2, ![128, 80]⟩
abbrev S1x80 : Shape := ⟨2, ![1, 80]⟩
abbrev S80x48 : Shape := ⟨2, ![80, 48]⟩
abbrev S1x48 : Shape := ⟨2, ![1, 48]⟩
abbrev S131072x48 : Shape := ⟨2, ![131072, 48]⟩
abbrev S8192x203 : Shape := ⟨2, ![8192, 203]⟩
abbrev S8192x48 : Shape := ⟨2, ![8192, 48]⟩
abbrev S2048x203 : Shape := ⟨2, ![2048, 203]⟩
abbrev S2048x175 : Shape := ⟨2, ![2048, 175]⟩
abbrev S2048x150 : Shape := ⟨2, ![2048, 150]⟩
abbrev S2048x128 : Shape := ⟨2, ![2048, 128]⟩
abbrev S2048x80 : Shape := ⟨2, ![2048, 80]⟩
abbrev S2048x48 : Shape := ⟨2, ![2048, 48]⟩

abbrev nBuf : Space → Nat
  | .hbm => 27
  | .vmem => 14
  | .smem => 0
  | _ => 0

abbrev bufTy : (tb : Table) → Fin (tcTables nBuf tb) → BufTy
  | .hbm, ⟨0, _⟩ => ⟨S131072x203, .f32⟩
  | .hbm, ⟨1, _⟩ => ⟨S175x203, .f32⟩
  | .hbm, ⟨2, _⟩ => ⟨S175, .f32⟩
  | .hbm, ⟨3, _⟩ => ⟨S150x175, .f32⟩
  | .hbm, ⟨4, _⟩ => ⟨S150, .f32⟩
  | .hbm, ⟨5, _⟩ => ⟨S128x150, .f32⟩
  | .hbm, ⟨6, _⟩ => ⟨S128, .f32⟩
  | .hbm, ⟨7, _⟩ => ⟨S80x128, .f32⟩
  | .hbm, ⟨8, _⟩ => ⟨S80, .f32⟩
  | .hbm, ⟨9, _⟩ => ⟨S48x80, .f32⟩
  | .hbm, ⟨10, _⟩ => ⟨S48, .f32⟩
  | .hbm, ⟨11, _⟩ => ⟨S203x175, .f32⟩
  | .hbm, ⟨12, _⟩ => ⟨S203x175, .bf16⟩
  | .hbm, ⟨13, _⟩ => ⟨S1x175, .f32⟩
  | .hbm, ⟨14, _⟩ => ⟨S175x150, .f32⟩
  | .hbm, ⟨15, _⟩ => ⟨S175x150, .bf16⟩
  | .hbm, ⟨16, _⟩ => ⟨S1x150, .f32⟩
  | .hbm, ⟨17, _⟩ => ⟨S150x128, .f32⟩
  | .hbm, ⟨18, _⟩ => ⟨S150x128, .bf16⟩
  | .hbm, ⟨19, _⟩ => ⟨S1x128, .f32⟩
  | .hbm, ⟨20, _⟩ => ⟨S128x80, .f32⟩
  | .hbm, ⟨21, _⟩ => ⟨S128x80, .bf16⟩
  | .hbm, ⟨22, _⟩ => ⟨S1x80, .f32⟩
  | .hbm, ⟨23, _⟩ => ⟨S80x48, .f32⟩
  | .hbm, ⟨24, _⟩ => ⟨S80x48, .bf16⟩
  | .hbm, ⟨25, _⟩ => ⟨S1x48, .f32⟩
  | .hbm, ⟨26, _⟩ => ⟨S131072x48, .f32⟩
  | .local _ .vmem, ⟨0, _⟩ => ⟨S8192x203, .f32⟩
  | .local _ .vmem, ⟨1, _⟩ => ⟨S8192x203, .f32⟩
  | .local _ .vmem, ⟨2, _⟩ => ⟨S203x175, .bf16⟩
  | .local _ .vmem, ⟨3, _⟩ => ⟨S1x175, .f32⟩
  | .local _ .vmem, ⟨4, _⟩ => ⟨S175x150, .bf16⟩
  | .local _ .vmem, ⟨5, _⟩ => ⟨S1x150, .f32⟩
  | .local _ .vmem, ⟨6, _⟩ => ⟨S150x128, .bf16⟩
  | .local _ .vmem, ⟨7, _⟩ => ⟨S1x128, .f32⟩
  | .local _ .vmem, ⟨8, _⟩ => ⟨S128x80, .bf16⟩
  | .local _ .vmem, ⟨9, _⟩ => ⟨S1x80, .f32⟩
  | .local _ .vmem, ⟨10, _⟩ => ⟨S80x48, .bf16⟩
  | .local _ .vmem, ⟨11, _⟩ => ⟨S1x48, .f32⟩
  | .local _ .vmem, ⟨12, _⟩ => ⟨S8192x48, .f32⟩
  | .local _ .vmem, ⟨13, _⟩ => ⟨S8192x48, .f32⟩
  | _, _ => ⟨S131072x203, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c2048_i32 : BitVec 32 := 2048#32
  let v1 : BitVec 32 := Scalar.muli arg13 c2048_i32
  v1
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2048_i32 : BitVec 32 := 2048#32
  let v1 : BitVec 32 := Scalar.muli arg13 c2048_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c2048_i32 : BitVec 32 := 2048#32
  let v1 : BitVec 32 := Scalar.muli arg13 c2048_i32
  let v2 : BitVec 32 := v1
  let v49 : Index := Scalar.indexCast v2
  let c0_25 : Index := 0#32
  ![v49.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x203 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S203x175 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x175 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S175x150 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S150x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x80 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S80x48 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x48 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S175x203_S203x175_1_0 : S175x203.Transposes [1, 0] S203x175
  bitsLt_bf16_f32 : FTy.bits .bf16 < FTy.bits .f32
  shapeCasts_S175_S1x175 : S175.ShapeCasts S1x175
  transposes_S150x175_S175x150_1_0 : S150x175.Transposes [1, 0] S175x150
  shapeCasts_S150_S1x150 : S150.ShapeCasts S1x150
  transposes_S128x150_S150x128_1_0 : S128x150.Transposes [1, 0] S150x128
  shapeCasts_S128_S1x128 : S128.ShapeCasts S1x128
  transposes_S80x128_S128x80_1_0 : S80x128.Transposes [1, 0] S128x80
  shapeCasts_S80_S1x80 : S80.ShapeCasts S1x80
  transposes_S48x80_S80x48_1_0 : S48x80.Transposes [1, 0] S80x48
  shapeCasts_S48_S1x48 : S48.ShapeCasts S1x48
  h_S2048x203 : 0 < S2048x203.numel
  inb_S203x175_S203x175_0_0 : ∀ a, (![0, 0] : Fin 2 → Nat) a + S203x175.size a ≤ S203x175.size a
  h_S203x175 : 0 < S203x175.numel
  shapeCasts_S203x175_S203x175 : S203x175.ShapeCasts S203x175
  inb_S1x175_S1x175_0_0 : ∀ a, (![0, 0] : Fin 2 → Nat) a + S1x175.size a ≤ S1x175.size a
  h_S1x175 : 0 < S1x175.numel
  shapeCasts_S1x175_S1x175 : S1x175.ShapeCasts S1x175
  broadcasts_S1x175_S2048x175 : S1x175.Broadcasts S2048x175
  inb_S175x150_S175x150_0_0 : ∀ a, (![0, 0] : Fin 2 → Nat) a + S175x150.size a ≤ S175x150.size a
  h_S175x150 : 0 < S175x150.numel
  shapeCasts_S175x150_S175x150 : S175x150.ShapeCasts S175x150
  inb_S1x150_S1x150_0_0 : ∀ a, (![0, 0] : Fin 2 → Nat) a + S1x150.size a ≤ S1x150.size a
  h_S1x150 : 0 < S1x150.numel
  shapeCasts_S1x150_S1x150 : S1x150.ShapeCasts S1x150
  broadcasts_S1x150_S2048x150 : S1x150.Broadcasts S2048x150
  inb_S150x128_S150x128_0_0 : ∀ a, (![0, 0] : Fin 2 → Nat) a + S150x128.size a ≤ S150x128.size a
  h_S150x128 : 0 < S150x128.numel
  shapeCasts_S150x128_S150x128 : S150x128.ShapeCasts S150x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x80_S128x80_0_0 : ∀ a, (![0, 0] : Fin 2 → Nat) a + S128x80.size a ≤ S128x80.size a
  h_S128x80 : 0 < S128x80.numel
  shapeCasts_S128x80_S128x80 : S128x80.ShapeCasts S128x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2048x80 : S1x80.Broadcasts S2048x80
  inb_S80x48_S80x48_0_0 : ∀ a, (![0, 0] : Fin 2 → Nat) a + S80x48.size a ≤ S80x48.size a
  h_S80x48 : 0 < S80x48.numel
  shapeCasts_S80x48_S80x48 : S80x48.ShapeCasts S80x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2048x48 : S1x48.Broadcasts S2048x48
  h_S2048x48 : 0 < S2048x48.numel
  dot_S2048x203_S203x175_S2048x175_1_0_0_1_n_n_wf : DotDims.WF S2048x203 S203x175 S2048x175 [1] [0] [0] [1] [] []
  dot_S2048x175_S175x150_S2048x150_1_0_0_1_n_n_wf : DotDims.WF S2048x175 S175x150 S2048x150 [1] [0] [0] [1] [] []
  dot_S2048x150_S150x128_S2048x128_1_0_0_1_n_n_wf : DotDims.WF S2048x150 S150x128 S2048x128 [1] [0] [0] [1] [] []
  dot_S2048x128_S128x80_S2048x80_1_0_0_1_n_n_wf : DotDims.WF S2048x128 S128x80 S2048x80 [1] [0] [0] [1] [] []
  dot_S2048x80_S80x48_S2048x48_1_0_0_1_n_n_wf : DotDims.WF S2048x80 S80x48 S2048x48 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x203.size a ≤ S8192x203.size a
  k0_off2_inb : ∀ k0_t1 : Fin k0_t1_loop.trips, ∀ a, (k0_off2 k0_t1) a + S2048x48.size a ≤ S8192x48.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x203.size a ≤ S131072x203.size a
  hwx0_0 : ∀ i : grid0.Coords, EltTy.bits .f32 = 32 ∨ (Rect.block (s := S131072x203) S8192x203.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S203x175.size a ≤ S203x175.size a
  hwx0_1 : ∀ i : grid0.Coords, EltTy.bits .bf16 = 32 ∨ (Rect.block (s := S203x175) S203x175.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x175.size a ≤ S1x175.size a
  hwx0_2 : ∀ i : grid0.Coords, EltTy.bits .f32 = 32 ∨ (Rect.block (s := S1x175) S1x175.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S175x150.size a ≤ S175x150.size a
  hwx0_3 : ∀ i : grid0.Coords, EltTy.bits .bf16 = 32 ∨ (Rect.block (s := S175x150) S175x150.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x150.size a ≤ S1x150.size a
  hwx0_4 : ∀ i : grid0.Coords, EltTy.bits .f32 = 32 ∨ (Rect.block (s := S1x150) S1x150.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S150x128.size a ≤ S150x128.size a
  hwx0_5 : ∀ i : grid0.Coords, EltTy.bits .bf16 = 32 ∨ (Rect.block (s := S150x128) S150x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x80.size a ≤ S128x80.size a
  hwx0_7 : ∀ i : grid0.Coords, EltTy.bits .bf16 = 32 ∨ (Rect.block (s := S128x80) S128x80.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S80x48.size a ≤ S80x48.size a
  hwx0_9 : ∀ i : grid0.Coords, EltTy.bits .bf16 = 32 ∨ (Rect.block (s := S80x48) S80x48.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x48.size a ≤ S1x48.size a
  hwx0_10 : ∀ i : grid0.Coords, EltTy.bits .f32 = 32 ∨ (Rect.block (s := S1x48) S1x48.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x48.size a ≤ S131072x48.size a
  hwx0_11 : ∀ i : grid0.Coords, EltTy.bits .f32 = 32 ∨ (Rect.block (s := S131072x48) S8192x48.size (cc0_transform_11 i) (hinb0_11 i)).WholeWords (EltTy.packing .f32)

variable [Facts₀]

def dot_S2048x203_S203x175_S2048x175_1_0_0_1_n_n : DotDims S2048x203 S203x175 S2048x175 where
  lhsContracting := [1]
  rhsContracting := [0]
  lhsNonContracting := [0]
  rhsNonContracting := [1]
  lhsBatch := []
  rhsBatch := []
  wf := dot_S2048x203_S203x175_S2048x175_1_0_0_1_n_n_wf
def dot_S2048x175_S175x150_S2048x150_1_0_0_1_n_n : DotDims S2048x175 S175x150 S2048x150 where
  lhsContracting := [1]
  rhsContracting := [0]
  lhsNonContracting := [0]
  rhsNonContracting := [1]
  lhsBatch := []
  rhsBatch := []
  wf := dot_S2048x175_S175x150_S2048x150_1_0_0_1_n_n_wf
def dot_S2048x150_S150x128_S2048x128_1_0_0_1_n_n : DotDims S2048x150 S150x128 S2048x128 where
  lhsContracting := [1]
  rhsContracting := [0]
  lhsNonContracting := [0]
  rhsNonContracting := [1]
  lhsBatch := []
  rhsBatch := []
  wf := dot_S2048x150_S150x128_S2048x128_1_0_0_1_n_n_wf
def dot_S2048x128_S128x80_S2048x80_1_0_0_1_n_n : DotDims S2048x128 S128x80 S2048x80 where
  lhsContracting := [1]
  rhsContracting := [0]
  lhsNonContracting := [0]
  rhsNonContracting := [1]
  lhsBatch := []
  rhsBatch := []
  wf := dot_S2048x128_S128x80_S2048x80_1_0_0_1_n_n_wf
def dot_S2048x80_S80x48_S2048x48_1_0_0_1_n_n : DotDims S2048x80 S80x48 S2048x48 where
  lhsContracting := [1]
  rhsContracting := [0]
  lhsNonContracting := [0]
  rhsNonContracting := [1]
  lhsBatch := []
  rhsBatch := []
  wf := dot_S2048x80_S80x48_S2048x48_1_0_0_1_n_n_wf

abbrev win0_0 : Pipeline.Window sig grid0 :=
  Pipeline.Window.ofSpec (Memref.whole main_arg0) S8192x203.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S203x175.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x175.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S175x150.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x150.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S150x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S80x48.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1x48.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v15) S8192x48.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x203 : Shape := ⟨2, ![131072, 203]⟩
abbrev S175x203 : Shape := ⟨2, ![175, 203]⟩
abbrev S175 : Shape := ⟨1, ![175]⟩
abbrev S150x175 : Shape := ⟨2, ![150, 175]⟩
abbrev S150 : Shape := ⟨1, ![150]⟩
abbrev S128x150 : Shape := ⟨2, ![128, 150]⟩
abbrev S128 : Shape := ⟨1, ![128]⟩
abbrev S80x128 : Shape := ⟨2, ![80, 128]⟩
abbrev S80 : Shape := ⟨1, ![80]⟩
abbrev S48x80 : Shape := ⟨2, ![48, 80]⟩
abbrev S48 : Shape := ⟨1, ![48]⟩
abbrev S203x175 : Shape := ⟨2, ![203, 175]⟩
abbrev S131072x175 : Shape := ⟨2, ![131072, 175]⟩
abbrev S1x175 : Shape := ⟨2, ![1, 175]⟩
abbrev S175x150 : Shape := ⟨2, ![175, 150]⟩
abbrev S131072x150 : Shape := ⟨2, ![131072, 150]⟩
abbrev S1x150 : Shape := ⟨2, ![1, 150]⟩
abbrev S150x128 : Shape := ⟨2, ![150, 128]⟩
abbrev S131072x128 : Shape := ⟨2, ![131072, 128]⟩
abbrev S1x128 : Shape := ⟨2, ![1, 128]⟩
abbrev S128x80 : Shape := ⟨2, ![128, 80]⟩
abbrev S131072x80 : Shape := ⟨2, ![131072, 80]⟩
abbrev S1x80 : Shape := ⟨2, ![1, 80]⟩
abbrev S80x48 : Shape := ⟨2, ![80, 48]⟩
abbrev S131072x48 : Shape := ⟨2, ![131072, 48]⟩
abbrev S1x48 : Shape := ⟨2, ![1, 48]⟩

abbrev nBuf : Space → Nat
  | .hbm => 40
  | .vmem => 0
  | .smem => 0
  | _ => 0

abbrev bufTy : (tb : Table) → Fin (tcTables nBuf tb) → BufTy
  | .hbm, ⟨0, _⟩ => ⟨S131072x203, .f32⟩
  | .hbm, ⟨1, _⟩ => ⟨S175x203, .f32⟩
  | .hbm, ⟨2, _⟩ => ⟨S175, .f32⟩
  | .hbm, ⟨3, _⟩ => ⟨S150x175, .f32⟩
  | .hbm, ⟨4, _⟩ => ⟨S150, .f32⟩
  | .hbm, ⟨5, _⟩ => ⟨S128x150, .f32⟩
  | .hbm, ⟨6, _⟩ => ⟨S128, .f32⟩
  | .hbm, ⟨7, _⟩ => ⟨S80x128, .f32⟩
  | .hbm, ⟨8, _⟩ => ⟨S80, .f32⟩
  | .hbm, ⟨9, _⟩ => ⟨S48x80, .f32⟩
  | .hbm, ⟨10, _⟩ => ⟨S48, .f32⟩
  | .hbm, ⟨11, _⟩ => ⟨S203x175, .f32⟩
  | .hbm, ⟨12, _⟩ => ⟨S131072x175, .f32⟩
  | .hbm, ⟨13, _⟩ => ⟨S1x175, .f32⟩
  | .hbm, ⟨14, _⟩ => ⟨S131072x175, .f32⟩
  | .hbm, ⟨15, _⟩ => ⟨S131072x175, .f32⟩
  | .hbm, ⟨16, _⟩ => ⟨S131072x175, .f32⟩
  | .hbm, ⟨17, _⟩ => ⟨S175x150, .f32⟩
  | .hbm, ⟨18, _⟩ => ⟨S131072x150, .f32⟩
  | .hbm, ⟨19, _⟩ => ⟨S1x150, .f32⟩
  | .hbm, ⟨20, _⟩ => ⟨S131072x150, .f32⟩
  | .hbm, ⟨21, _⟩ => ⟨S131072x150, .f32⟩
  | .hbm, ⟨22, _⟩ => ⟨S131072x150, .f32⟩
  | .hbm, ⟨23, _⟩ => ⟨S150x128, .f32⟩
  | .hbm, ⟨24, _⟩ => ⟨S131072x128, .f32⟩
  | .hbm, ⟨25, _⟩ => ⟨S1x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S128x80, .f32⟩
  | .hbm, ⟨30, _⟩ => ⟨S131072x80, .f32⟩
  | .hbm, ⟨31, _⟩ => ⟨S1x80, .f32⟩
  | .hbm, ⟨32, _⟩ => ⟨S131072x80, .f32⟩
  | .hbm, ⟨33, _⟩ => ⟨S131072x80, .f32⟩
  | .hbm, ⟨34, _⟩ => ⟨S131072x80, .f32⟩
  | .hbm, ⟨35, _⟩ => ⟨S80x48, .f32⟩
  | .hbm, ⟨36, _⟩ => ⟨S131072x48, .f32⟩
  | .hbm, ⟨37, _⟩ => ⟨S1x48, .f32⟩
  | .hbm, ⟨38, _⟩ => ⟨S131072x48, .f32⟩
  | .hbm, ⟨39, _⟩ => ⟨S131072x48, .f32⟩
  | _, _ => ⟨S131072x203, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S175x203_S203x175_1_0 : S175x203.Transposes [1, 0] S203x175
  bcast_S175_S1x175_1 : S175.BroadcastsInDim S1x175 (![1] : Fin 1 → Fin S1x175.rank)
  bcast_S1x175_S131072x175_0_1 : S1x175.BroadcastsInDim S131072x175 (![0, 1] : Fin 2 → Fin S131072x175.rank)
  transposes_S150x175_S175x150_1_0 : S150x175.Transposes [1, 0] S175x150
  bcast_S150_S1x150_1 : S150.BroadcastsInDim S1x150 (![1] : Fin 1 → Fin S1x150.rank)
  bcast_S1x150_S131072x150_0_1 : S1x150.BroadcastsInDim S131072x150 (![0, 1] : Fin 2 → Fin S131072x150.rank)
  transposes_S128x150_S150x128_1_0 : S128x150.Transposes [1, 0] S150x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  transposes_S80x128_S128x80_1_0 : S80x128.Transposes [1, 0] S128x80
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  transposes_S48x80_S80x48_1_0 : S48x80.Transposes [1, 0] S80x48
  bcast_S48_S1x48_1 : S48.BroadcastsInDim S1x48 (![1] : Fin 1 → Fin S1x48.rank)
  bcast_S1x48_S131072x48_0_1 : S1x48.BroadcastsInDim S131072x48 (![0, 1] : Fin 2 → Fin S131072x48.rank)
  dot_S131072x203_S203x175_S131072x175_1_0_0_1_n_n_wf : DotDims.WF S131072x203 S203x175 S131072x175 [1] [0] [0] [1] [] []
  dot_S131072x175_S175x150_S131072x150_1_0_0_1_n_n_wf : DotDims.WF S131072x175 S175x150 S131072x150 [1] [0] [0] [1] [] []
  dot_S131072x150_S150x128_S131072x128_1_0_0_1_n_n_wf : DotDims.WF S131072x150 S150x128 S131072x128 [1] [0] [0] [1] [] []
  dot_S131072x128_S128x80_S131072x80_1_0_0_1_n_n_wf : DotDims.WF S131072x128 S128x80 S131072x80 [1] [0] [0] [1] [] []
  dot_S131072x80_S80x48_S131072x48_1_0_0_1_n_n_wf : DotDims.WF S131072x80 S80x48 S131072x48 [1] [0] [0] [1] [] []

variable [Facts₀]

def dot_S131072x203_S203x175_S131072x175_1_0_0_1_n_n : DotDims S131072x203 S203x175 S131072x175 where
  lhsContracting := [1]
  rhsContracting := [0]
  lhsNonContracting := [0]
  rhsNonContracting := [1]
  lhsBatch := []
  rhsBatch := []
  wf := dot_S131072x203_S203x175_S131072x175_1_0_0_1_n_n_wf
def dot_S131072x175_S175x150_S131072x150_1_0_0_1_n_n : DotDims S131072x175 S175x150 S131072x150 where
  lhsContracting := [1]
  rhsContracting := [0]
  lhsNonContracting := [0]
  rhsNonContracting := [1]
  lhsBatch := []
  rhsBatch := []
  wf := dot_S131072x175_S175x150_S131072x150_1_0_0_1_n_n_wf
def dot_S131072x150_S150x128_S131072x128_1_0_0_1_n_n : DotDims S131072x150 S150x128 S131072x128 where
  lhsContracting := [1]
  rhsContracting := [0]
  lhsNonContracting := [0]
  rhsNonContracting := [1]
  lhsBatch := []
  rhsBatch := []
  wf := dot_S131072x150_S150x128_S131072x128_1_0_0_1_n_n_wf
def dot_S131072x128_S128x80_S131072x80_1_0_0_1_n_n : DotDims S131072x128 S128x80 S131072x80 where
  lhsContracting := [1]
  rhsContracting := [0]
  lhsNonContracting := [0]
  rhsNonContracting := [1]
  lhsBatch := []
  rhsBatch := []
  wf := dot_S131072x128_S128x80_S131072x80_1_0_0_1_n_n_wf
def dot_S131072x80_S80x48_S131072x48_1_0_0_1_n_n : DotDims S131072x80 S80x48 S131072x48 where
  lhsContracting := [1]
  rhsContracting := [0]
  lhsNonContracting := [0]
  rhsNonContracting := [1]
  lhsBatch := []
  rhsBatch := []
  wf := dot_S131072x80_S80x48_S131072x48_1_0_0_1_n_n_wf

class Facts : Prop extends Facts₀ where

variable [Facts]
-- ==== Proof.LibDenseLayer.lean ====
/-
  A dense layer read entry by entry, at the extended reals.

  For a matrix `X` of `R` rows and `K` columns, a weight `w : Fin N → Fin K → EReal` (output-major) and a bias
  `b : Fin N → EReal`, the layer's entry `(r, n)` is `(∑ k, X r k * w n k) + b n`. Two programs spell this
  differently and both are this function:

  * the host's `x @ W.T + b`: a `dot_general` of `X` with the transpose of `W : [N, K]`, plus `b` broadcast
    first to one row and then down the rows;
  * a kernel's `dot(x.astype(bf16), wt) + b_row`: a matrix product into a zero accumulator of the (format-changed)
    `X` with an already transposed `WT : [K, N]`, plus a one-row `[1, N]` bias broadcast down the rows.

  At the extended reals a format change is the identity and a product into a zero accumulator is the plain sum, so
  each is `denseArr` of its operands; followed by `tanh` (the vector unit's or the host's: one function on the
  extended reals) each is `hiddenArr`. The sums are the same sums over the same `Fin K`: nothing is reordered, so
  no finiteness is used.
-/
import Idealize.ShloMosaic.Lib.StackMember
import Idealize.ShloMosaic.Lib.KernelVsHost
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- One dense layer on one row: `(∑ k, x k * w n k) + b n`. -/
def dense {K N : Nat} (x : Fin K → EReal) (w : Fin N → Fin K → EReal) (b : Fin N → EReal) (n : Fin N) : EReal :=
  (∑ k : Fin K, x k * w n k) + b n

/-- A dense layer followed by `tanh`. -/
def hidden {K N : Nat} (x : Fin K → EReal) (w : Fin N → Fin K → EReal) (b : Fin N → EReal) (n : Fin N) : EReal :=
  Ideal.tanh (dense x w b n)

/-- Row `r` of a rank-2 array. -/
abbrev row {A B : Nat} {φ : FTy} (X : FVec Ideal ⟨2, ![A, B]⟩ φ) (r : Fin A) : Fin B → EReal := fun k => X (ix2 r k)

/-- The dense layer applied to every row of an array. -/
def denseArr {R K N : Nat} {φ : FTy} (X : FVec Ideal ⟨2, ![R, K]⟩ φ) (w : Fin N → Fin K → EReal) (b : Fin N → EReal) :
    FVec Ideal ⟨2, ![R, N]⟩ .f32 :=
  fun i => dense (row X (i 0)) w b (i 1)

/-- The dense layer and `tanh` applied to every row of an array. -/
def hiddenArr {R K N : Nat} {φ : FTy} (X : FVec Ideal ⟨2, ![R, K]⟩ φ) (w : Fin N → Fin K → EReal) (b : Fin N → EReal) :
    FVec Ideal ⟨2, ![R, N]⟩ .f32 :=
  fun i => hidden (row X (i 0)) w b (i 1)

theorem denseArr_apply {R K N : Nat} {φ : FTy} (X : FVec Ideal ⟨2, ![R, K]⟩ φ) (w : Fin N → Fin K → EReal)
    (b : Fin N → EReal) (r : Fin R) (n : Fin N) : denseArr X w b (ix2 r n) = dense (row X r) w b n := rfl

theorem hiddenArr_apply {R K N : Nat} {φ : FTy} (X : FVec Ideal ⟨2, ![R, K]⟩ φ) (w : Fin N → Fin K → EReal)
    (b : Fin N → EReal) (r : Fin R) (n : Fin N) : hiddenArr X w b (ix2 r n) = hidden (row X r) w b n := rfl

/-- A row of the hidden layer's output depends only on that row of its input. -/
theorem row_hiddenArr {R K N : Nat} {φ : FTy} (X : FVec Ideal ⟨2, ![R, K]⟩ φ) (w : Fin N → Fin K → EReal)
    (b : Fin N → EReal) (r : Fin R) : row (hiddenArr X w b) r = hidden (row X r) w b := rfl

/-! ## The host's spelling: `dot_general` with a transposed weight, the bias broadcast twice -/

/-- A bias vector broadcast to one row and then down `R` rows, read at `(r, n)`, is its entry `n`. -/
theorem bias_twice_apply {R N : Nat} (B : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) (r : Fin R) (n : Fin N) :
    broadcastInDim ⟨2, ![R, N]⟩ ![0, 1] hb2 (broadcastInDim ⟨2, ![1, N]⟩ ![1] hb1 B) (ix2 r n) = B (ix1 n) := by
  rw [broadcastInDim_oneRow_apply]
  refine broadcastInDim_apply ![1] hb1 B (ix2 (0 : Fin 1) n) (ix1 n) ?_
  intro a
  match a with
  | ⟨0, _⟩ =>
    show n.val = if N = 1 then 0 else n.val
    split
    · have := n.isLt; omega
    · rfl

/-- The transpose of `W : [N, K]` read at `(k, n)` is `W` at `(n, k)`. -/
theorem transpose_kn_apply {K N : Nat} (W : FVec Ideal ⟨2, ![N, K]⟩ .f32)
    (ht : (⟨2, ![N, K]⟩ : Shape).Transposes [1, 0] ⟨2, ![K, N]⟩) (k : Fin K) (n : Fin N) :
    transpose ⟨2, ![K, N]⟩ [1, 0] W ht (ix2 k n) = W (ix2 n k) :=
  transpose_apply [1, 0] W ht (ix2 k n) (ix2 n k) (fun b => match b with
    | ⟨0, _⟩ => rfl
    | ⟨1, _⟩ => rfl)

/-- `x @ W.T + b` on the host is the dense layer of `W`'s matrix and `b`'s vector, on every row. -/
theorem host_dense {R K N : Nat} (d : DotDims ⟨2, ![R, K]⟩ ⟨2, ![K, N]⟩ ⟨2, ![R, N]⟩) (hd : d = DotDims.plain R K N)
    (prec : Option ContractPrecision) (X : FVec Ideal ⟨2, ![R, K]⟩ .f32) (W : FVec Ideal ⟨2, ![N, K]⟩ .f32)
    (ht : (⟨2, ![N, K]⟩ : Shape).Transposes [1, 0] ⟨2, ![K, N]⟩) (B : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) :
    addf (Host.dotGeneral d prec X (transpose ⟨2, ![K, N]⟩ [1, 0] W ht))
        (broadcastInDim ⟨2, ![R, N]⟩ ![0, 1] hb2 (broadcastInDim ⟨2, ![1, N]⟩ ![1] hb1 B))
      = denseArr X (fun n k => W (ix2 n k)) (fun n => B (ix1 n)) := by
  subst hd
  funext i
  obtain ⟨r, n, rfl⟩ : ∃ (r : Fin R) (n : Fin N), i = ix2 r n := ⟨i 0, i 1, eq_ix2 i⟩
  rw [addf_apply, StackMember.dotGeneral_plain_apply, bias_twice_apply, denseArr_apply]
  unfold dense
  refine congrArg (· + B (ix1 n)) (Finset.sum_congr rfl fun k _ => ?_)
  rw [transpose_kn_apply]

/-- … and with the host's `tanh` on top it is the hidden layer. -/
theorem host_hidden {R K N : Nat} (d : DotDims ⟨2, ![R, K]⟩ ⟨2, ![K, N]⟩ ⟨2, ![R, N]⟩) (hd : d = DotDims.plain R K N)
    (prec : Option ContractPrecision) (X : FVec Ideal ⟨2, ![R, K]⟩ .f32) (W : FVec Ideal ⟨2, ![N, K]⟩ .f32)
    (ht : (⟨2, ![N, K]⟩ : Shape).Transposes [1, 0] ⟨2, ![K, N]⟩) (B : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) :
    Host.tanh (addf (Host.dotGeneral d prec X (transpose ⟨2, ![K, N]⟩ [1, 0] W ht))
        (broadcastInDim ⟨2, ![R, N]⟩ ![0, 1] hb2 (broadcastInDim ⟨2, ![1, N]⟩ ![1] hb1 B)))
      = hiddenArr X (fun n k => W (ix2 n k)) (fun n => B (ix1 n)) := by
  rw [host_dense d hd]
  rfl

/-! ## A kernel's spelling: a product into zero with a transposed weight block, a one-row bias -/

/-- A one-row bias block broadcast down `R` rows, read at `(r, n)`, is its entry `(0, n)`. -/
theorem bias_row_apply {R N : Nat} (Bv : FVec Ideal ⟨2, ![1, N]⟩ .f32)
    (hb : (⟨2, ![1, N]⟩ : Shape).Broadcasts ⟨2, ![R, N]⟩) (r : Fin R) (n : Fin N) :
    broadcastTo ⟨2, ![R, N]⟩ Bv hb (ix2 r n) = Bv (ix2 (0 : Fin 1) n) := by
  refine broadcastTo_apply Bv hb (ix2 r n) (ix2 (0 : Fin 1) n) ?_
  intro a
  match a with
  | ⟨0, _⟩ => rfl
  | ⟨1, _⟩ =>
    show n.val = if N = 1 then 0 else n.val
    split
    · have := n.isLt; omega
    · rfl

/-- `dot(x.astype(bf16), wt) + b_row` in a kernel, the product accumulated into zero, is the dense layer of the
    transposed block's matrix `(n, k) ↦ WT (k, n)` and the one-row bias, on every row. -/
theorem kernel_dense {R K N : Nat} {φ : FTy} (d : DotDims ⟨2, ![R, K]⟩ ⟨2, ![K, N]⟩ ⟨2, ![R, N]⟩)
    (hd : d = DotDims.plain R K N) (prec : Option ContractPrecision) (X : FVec Ideal ⟨2, ![R, K]⟩ .f32)
    (hlt : FTy.bits φ < FTy.bits .f32) (WT : FVec Ideal ⟨2, ![K, N]⟩ φ)
    (hs : (⟨2, ![K, N]⟩ : Shape).ShapeCasts ⟨2, ![K, N]⟩) (Bv : FVec Ideal ⟨2, ![1, N]⟩ .f32)
    (hs1 : (⟨2, ![1, N]⟩ : Shape).ShapeCasts ⟨2, ![1, N]⟩) (hb : (⟨2, ![1, N]⟩ : Shape).Broadcasts ⟨2, ![R, N]⟩) :
    addf (matmul d prec (truncf φ X hlt) (shapeCast ⟨2, ![K, N]⟩ WT hs) (constant ⟨2, ![R, N]⟩ .f32 0x00000000#32))
        (broadcastTo ⟨2, ![R, N]⟩ (shapeCast ⟨2, ![1, N]⟩ Bv hs1) hb)
      = denseArr X (fun n k => WT (ix2 k n)) (fun n => Bv (ix2 (0 : Fin 1) n)) := by
  subst hd
  funext i
  obtain ⟨r, n, rfl⟩ : ∃ (r : Fin R) (n : Fin N), i = ix2 r n := ⟨i 0, i 1, eq_ix2 i⟩
  rw [addf_apply, matmul_zero_eq_dotGeneral, StackMember.dotGeneral_plain_apply, shapeCast_self, shapeCast_self,
    bias_row_apply, denseArr_apply]
  rfl

/-- … and with the vector unit's `tanh` on top it is the hidden layer. -/
theorem kernel_hidden {R K N : Nat} {φ : FTy} (d : DotDims ⟨2, ![R, K]⟩ ⟨2, ![K, N]⟩ ⟨2, ![R, N]⟩)
    (hd : d = DotDims.plain R K N) (prec : Option ContractPrecision) (X : FVec Ideal ⟨2, ![R, K]⟩ .f32)
    (hlt : FTy.bits φ < FTy.bits .f32) (WT : FVec Ideal ⟨2, ![K, N]⟩ φ)
    (hs : (⟨2, ![K, N]⟩ : Shape).ShapeCasts ⟨2, ![K, N]⟩) (Bv : FVec Ideal ⟨2, ![1, N]⟩ .f32)
    (hs1 : (⟨2, ![1, N]⟩ : Shape).ShapeCasts ⟨2, ![1, N]⟩) (hb : (⟨2, ![1, N]⟩ : Shape).Broadcasts ⟨2, ![R, N]⟩) :
    tanh (addf (matmul d prec (truncf φ X hlt) (shapeCast ⟨2, ![K, N]⟩ WT hs) (constant ⟨2, ![R, N]⟩ .f32 0x00000000#32))
        (broadcastTo ⟨2, ![R, N]⟩ (shapeCast ⟨2, ![1, N]⟩ Bv hs1) hb))
      = hiddenArr X (fun n k => WT (ix2 k n)) (fun n => Bv (ix2 (0 : Fin 1) n)) := by
  rw [kernel_dense d hd]
  rfl

end Cert.DenseLayer

end
-- ==== Proof.Mlp.lean ====
/-
  The function both programs compute, stated once over plain index types.

  The network is four dense layers each followed by `tanh` on the extended reals, then a fifth with no activation:
  203 → 175 → 150 → 128 → 80 → 48, every weight matrix stored output-major as in `x @ W.T + b`. Every row of the
  input is mapped independently: `net` applies the layers to each row of an array of any number `R` of rows, and
  its entry `(r, q)` is entry `q` of the image `netRow` of row `r` — whatever array that row sits in. That is what
  lets a block of rows, and a chunk of a block, be computed on its own.

  Nothing here needs the inputs finite: both programs form literally these sums and these `tanh`s, in this order of
  nesting; the proof never reorders or distributes.
-/
import proofs.«406686_j54193897341343_3_alg».proof.Proof.LibDenseLayer

noncomputable section

open scoped BigOperators

namespace Cert.Mlp

open Idealize.ShloMosaic Idealize.ShloMosaic.ValueIdx Cert.DenseLayer

/-- The five layers on one row. -/
def netRow (x : Fin 203 → EReal)
    (w1 : Fin 175 → Fin 203 → EReal) (b1 : Fin 175 → EReal)
    (w2 : Fin 150 → Fin 175 → EReal) (b2 : Fin 150 → EReal)
    (w3 : Fin 128 → Fin 150 → EReal) (b3 : Fin 128 → EReal)
    (w4 : Fin 80 → Fin 128 → EReal) (b4 : Fin 80 → EReal)
    (w5 : Fin 48 → Fin 80 → EReal) (b5 : Fin 48 → EReal) : Fin 48 → EReal :=
  dense (hidden (hidden (hidden (hidden x w1 b1) w2 b2) w3 b3) w4 b4) w5 b5

/-- The five layers on every row of an array of `R` rows. -/
def net {R : Nat} (X : FVec Ideal ⟨2, ![R, 203]⟩ .f32)
    (w1 : Fin 175 → Fin 203 → EReal) (b1 : Fin 175 → EReal)
    (w2 : Fin 150 → Fin 175 → EReal) (b2 : Fin 150 → EReal)
    (w3 : Fin 128 → Fin 150 → EReal) (b3 : Fin 128 → EReal)
    (w4 : Fin 80 → Fin 128 → EReal) (b4 : Fin 80 → EReal)
    (w5 : Fin 48 → Fin 80 → EReal) (b5 : Fin 48 → EReal) : FVec Ideal ⟨2, ![R, 48]⟩ .f32 :=
  denseArr (hiddenArr (hiddenArr (hiddenArr (hiddenArr X w1 b1) w2 b2) w3 b3) w4 b4) w5 b5

/-- Entry `(r, q)` of the network's output is entry `q` of the image of row `r` alone. -/
theorem net_apply {R : Nat} (X : FVec Ideal ⟨2, ![R, 203]⟩ .f32)
    (w1 : Fin 175 → Fin 203 → EReal) (b1 : Fin 175 → EReal)
    (w2 : Fin 150 → Fin 175 → EReal) (b2 : Fin 150 → EReal)
    (w3 : Fin 128 → Fin 150 → EReal) (b3 : Fin 128 → EReal)
    (w4 : Fin 80 → Fin 128 → EReal) (b4 : Fin 80 → EReal)
    (w5 : Fin 48 → Fin 80 → EReal) (b5 : Fin 48 → EReal) (r : Fin R) (q : Fin 48) :
    net X w1 b1 w2 b2 w3 b3 w4 b4 w5 b5 (ix2 r q) = netRow (row X r) w1 b1 w2 b2 w3 b3 w4 b4 w5 b5 q := rfl

/-- So two arrays that share a row share that row's output. -/
theorem net_apply_of_row {R R' : Nat} (X : FVec Ideal ⟨2, ![R, 203]⟩ .f32) (X' : FVec Ideal ⟨2, ![R', 203]⟩ .f32)
    (w1 : Fin 175 → Fin 203 → EReal) (b1 : Fin 175 → EReal)
    (w2 : Fin 150 → Fin 175 → EReal) (b2 : Fin 150 → EReal)
    (w3 : Fin 128 → Fin 150 → EReal) (b3 : Fin 128 → EReal)
    (w4 : Fin 80 → Fin 128 → EReal) (b4 : Fin 80 → EReal)
    (w5 : Fin 48 → Fin 80 → EReal) (b5 : Fin 48 → EReal) (r : Fin R) (r' : Fin R') (q : Fin 48)
    (h : row X r = row X' r') :
    net X w1 b1 w2 b2 w3 b3 w4 b4 w5 b5 (ix2 r q) = net X' w1 b1 w2 b2 w3 b3 w4 b4 w5 b5 (ix2 r' q) := by
  rw [net_apply, net_apply, h]

end Cert.Mlp

end
-- ==== Proof.RefNet.lean ====
/-
  The reference computes the network.

  Its result is five times "`dot_general` with the transposed weight, plus the bias broadcast to a row and down the
  rows", the first four under `tanh`: each is the dense (hidden) layer of the weight's matrix and the bias's vector
  on every row, so the whole term is `Cert.Mlp.net` of the eleven arguments.
-/
import proofs.«406686_j54193897341343_3_alg».proof.Proof.Gen.ReferenceIdeal.Read
import proofs.«406686_j54193897341343_3_alg».proof.Proof.Mlp

noncomputable section

namespace Cert.ReferenceIdeal.RefValue

open Cert.ReferenceIdeal Cert.ReferenceIdeal.Gen Cert.ReferenceIdeal.Read
open Idealize.ShloMosaic Idealize.ShloMosaic.ValueIdx Cert.DenseLayer Cert.Mlp

/-- The reference's result, as a function of its eleven arguments, is the network with each weight array read as
    its output-major matrix and each bias array as its vector. -/
theorem result_eq_net (x0 : FVec Ideal S131072x203 .f32) (x1 : FVec Ideal S175x203 .f32) (x2 : FVec Ideal S175 .f32)
    (x3 : FVec Ideal S150x175 .f32) (x4 : FVec Ideal S150 .f32) (x5 : FVec Ideal S128x150 .f32)
    (x6 : FVec Ideal S128 .f32) (x7 : FVec Ideal S80x128 .f32) (x8 : FVec Ideal S80 .f32)
    (x9 : FVec Ideal S48x80 .f32) (x10 : FVec Ideal S48 .f32) :
    val_main_v28 (F := Ideal) x0 x1 x2 x3 x4 x5 x6 x7 x8 x9 x10
      = net x0 (fun n k => x1 (ix2 n k)) (fun n => x2 (ix1 n)) (fun n k => x3 (ix2 n k)) (fun n => x4 (ix1 n))
          (fun n k => x5 (ix2 n k)) (fun n => x6 (ix1 n)) (fun n k => x7 (ix2 n k)) (fun n => x8 (ix1 n))
          (fun n k => x9 (ix2 n k)) (fun n => x10 (ix1 n)) := by
  rw [← val_main_v28_eq]
  rw [host_hidden dot_S131072x203_S203x175_S131072x175_1_0_0_1_n_n rfl,
    host_hidden dot_S131072x175_S175x150_S131072x150_1_0_0_1_n_n rfl,
    host_hidden dot_S131072x150_S150x128_S131072x128_1_0_0_1_n_n rfl,
    host_hidden dot_S131072x128_S128x80_S131072x80_1_0_0_1_n_n rfl,
    host_dense dot_S131072x80_S80x48_S131072x48_1_0_0_1_n_n rfl]
  rfl

end Cert.ReferenceIdeal.RefValue

end
-- ==== Proof.ChunkValue.lean ====
/-
  One chunk of the kernel's body computes the network on the chunk's rows.

  A loop trip loads 2048 rows of the staged `x` block and the ten resident operands — the five transposed weight
  blocks `[K, N]` and the five one-row bias blocks `[1, N]` — and stores the value of the five layers: four times
  "product into zero of the (format-changed) activations with the weight block, plus the bias row, `tanh`", then once
  more without `tanh`. Each is the hidden (dense) layer of the block's matrix `(n, k) ↦ WT (k, n)` and the row's
  vector `n ↦ B (0, n)`, so the stored value is `Cert.Mlp.net` of the chunk.
-/
import proofs.«406686_j54193897341343_3_alg».proof.Proof.Gen.KernelIdeal.Skeleton
import proofs.«406686_j54193897341343_3_alg».proof.Proof.Mlp

noncomputable section

namespace Cert.KernelIdeal.ChunkValue

open Cert.KernelIdeal Cert.KernelIdeal.Gen
open Idealize.ShloMosaic Idealize.ShloMosaic.ValueIdx Cert.DenseLayer Cert.Mlp

/-- A transposed weight block `[K, N]` as the output-major matrix of its layer. -/
abbrev wmat {K N : Nat} (WT : FVec Ideal ⟨2, ![K, N]⟩ .bf16) : Fin N → Fin K → EReal := fun n k => WT (ix2 k n)

/-- A one-row bias block `[1, N]` as the bias vector of its layer. -/
abbrev bvec {N : Nat} (B : FVec Ideal ⟨2, ![1, N]⟩ .f32) : Fin N → EReal := fun n => B (ix2 (0 : Fin 1) n)

/-- What a trip stores, from what it loads: the network on the 2048 loaded rows. -/
theorem stored_eq_net (v4 : Vec Ideal S2048x203 .f32) (v6 : Vec Ideal S203x175 .bf16) (v9 : Vec Ideal S1x175 .f32)
    (v15 : Vec Ideal S175x150 .bf16) (v18 : Vec Ideal S1x150 .f32) (v24 : Vec Ideal S150x128 .bf16)
    (v27 : Vec Ideal S1x128 .f32) (v33 : Vec Ideal S128x80 .bf16) (v36 : Vec Ideal S1x80 .f32)
    (v42 : Vec Ideal S80x48 .bf16) (v45 : Vec Ideal S1x48 .f32) :
    k0_pay1 (F := Ideal) (k0_pay2 (F := Ideal) v4 v6 v9 v15 v18 v24 v27 v33) (k0_pay3 (F := Ideal) v36) v42 v45
      = net v4 (wmat v6) (bvec v9) (wmat v15) (bvec v18) (wmat v24) (bvec v27) (wmat v33) (bvec v36)
          (wmat v42) (bvec v45) := by
  unfold k0_pay1 k0_pay2 k0_pay3
  dsimp only
  rw [kernel_hidden dot_S2048x203_S203x175_S2048x175_1_0_0_1_n_n rfl,
    kernel_hidden dot_S2048x175_S175x150_S2048x150_1_0_0_1_n_n rfl,
    kernel_hidden dot_S2048x150_S150x128_S2048x128_1_0_0_1_n_n rfl,
    kernel_hidden dot_S2048x128_S128x80_S2048x80_1_0_0_1_n_n rfl,
    kernel_dense dot_S2048x80_S80x48_S2048x48_1_0_0_1_n_n rfl]
  rfl

end Cert.KernelIdeal.ChunkValue

end
-- ==== Proof.BlockValue.lean ====
/-
  What one grid point leaves in the output's staging buffer: the network on the staged block of rows.

  The body's loop runs four trips; trip `k` loads rows `2048 k … 2048 k + 2047` of the staged `x` block and the ten
  resident operands whole, and stores, at the same rows of the output buffer, the five layers' value on those rows.
  The network maps every row independently, so the stored chunk is the chunk of ONE function of the whole staged
  block — `blockNet`: the network on all 8192 staged rows. Four such pieces tile the buffer, hence reading the
  buffer back after the loop gives `blockNet` everywhere.

  The loop's piece list is built by recursion on the number of trips done, a trip's pieces in front; a trip's list is
  read off its definition once (`trip_piece`) and the recursion is followed by induction (`pieces_are_blockNet`).
-/
import proofs.«406686_j54193897341343_3_alg».proof.Proof.Gen.KernelIdeal.Frame
import proofs.«406686_j54193897341343_3_alg».proof.Proof.ChunkValue

set_option maxRecDepth 16384

noncomputable section

namespace Cert.KernelIdeal.BlockValue

open Cert.KernelIdeal Cert.KernelIdeal.Gen Cert.KernelIdeal.ChunkValue
open Idealize.ShloMosaic Idealize.ShloMosaic.TcCoe Idealize.ShloMosaic.Tactic Idealize.SL.Sem
open Idealize.ShloMosaic.ValueIdx Cert.DenseLayer Cert.Mlp

/-! ## One trip's piece -/

section AnyInstance
variable {F : FTy → Type} [FloatOps F]

/-- Trip `k` writes ONE piece: at the trip's rows of the output buffer, the payload of what it loads — the trip's
    rows of the `x` buffer and the ten resident buffers whole. -/
theorem trip_piece (𝒱 : Variants) (c : Dev nD) (bd : Option 𝒱.V) (i : grid0.Coords) (arg1 : Memref sig .tc .vmem S8192x203 .f32) (harg1 : arg1.IsWhole) (arg2 : Memref sig .tc .vmem S203x175 .bf16) (harg2 : arg2.IsWhole) (arg3 : Memref sig .tc .vmem S1x175 .f32) (harg3 : arg3.IsWhole) (arg4 : Memref sig .tc .vmem S175x150 .bf16) (harg4 : arg4.IsWhole) (arg5 : Memref sig .tc .vmem S1x150 .f32) (harg5 : arg5.IsWhole) (arg6 : Memref sig .tc .vmem S150x128 .bf16) (harg6 : arg6.IsWhole) (arg7 : Memref sig .tc .vmem S1x128 .f32) (harg7 : arg7.IsWhole) (arg8 : Memref sig .tc .vmem S128x80 .bf16) (harg8 : arg8.IsWhole) (arg9 : Memref sig .tc .vmem S1x80 .f32) (harg9 : arg9.IsWhole) (arg10 : Memref sig .tc .vmem S80x48 .bf16) (harg10 : arg10.IsWhole) (arg11 : Memref sig .tc .vmem S1x48 .f32) (harg11 : arg11.IsWhole) (arg12 : Memref sig .tc .vmem S8192x48 .f32) (harg12 : arg12.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 X_arg1 X_arg2 X_arg3 X_arg4 X_arg5 X_arg6 X_arg7 X_arg8 X_arg9 X_arg10 X_arg11 k
      = [⟨Rect.unit (s := S8192x48) (k0_off2 k) S2048x48.size (k0_off2_inb k),
          k0_pay1
            (k0_pay2
              (View.readAt (Elt F) arg1.view (Rect.unit (s := S8192x203) (k0_off1 k) S2048x203.size (k0_off1_inb k)).toLoadRect X_arg1)
              (View.readAt (Elt F) arg2.view (Rect.unit (s := S203x175) ![0, 0] S203x175.size inb_S203x175_S203x175_0_0).toLoadRect X_arg2)
              (View.readAt (Elt F) arg3.view (Rect.unit (s := S1x175) ![0, 0] S1x175.size inb_S1x175_S1x175_0_0).toLoadRect X_arg3)
              (View.readAt (Elt F) arg4.view (Rect.unit (s := S175x150) ![0, 0] S175x150.size inb_S175x150_S175x150_0_0).toLoadRect X_arg4)
              (View.readAt (Elt F) arg5.view (Rect.unit (s := S1x150) ![0, 0] S1x150.size inb_S1x150_S1x150_0_0).toLoadRect X_arg5)
              (View.readAt (Elt F) arg6.view (Rect.unit (s := S150x128) ![0, 0] S150x128.size inb_S150x128_S150x128_0_0).toLoadRect X_arg6)
              (View.readAt (Elt F) arg7.view (Rect.unit (s := S1x128) ![0, 0] S1x128.size inb_S1x128_S1x128_0_0).toLoadRect X_arg7)
              (View.readAt (Elt F) arg8.view (Rect.unit (s := S128x80) ![0, 0] S128x80.size inb_S128x80_S128x80_0_0).toLoadRect X_arg8))
            (k0_pay3 (View.readAt (Elt F) arg9.view (Rect.unit (s := S1x80) ![0, 0] S1x80.size inb_S1x80_S1x80_0_0).toLoadRect X_arg9))
            (View.readAt (Elt F) arg10.view (Rect.unit (s := S80x48) ![0, 0] S80x48.size inb_S80x48_S80x48_0_0).toLoadRect X_arg10)
            (View.readAt (Elt F) arg11.view (Rect.unit (s := S1x48) ![0, 0] S1x48.size inb_S1x48_S1x48_0_0).toLoadRect X_arg11)⟩] := by
  unfold tripL_k0_t1 trip_k0_t1
  dsimp only
  sl_unfold_words
  rfl

end AnyInstance

/-! ## The chunk is a chunk of one function of the staged block -/

/-- The network on all 8192 staged rows, from the eleven staged blocks. -/
abbrev blockNet (x0 : Vec Ideal S8192x203 .f32) (x1 : Vec Ideal S203x175 .bf16) (x2 : Vec Ideal S1x175 .f32) (x3 : Vec Ideal S175x150 .bf16) (x4 : Vec Ideal S1x150 .f32) (x5 : Vec Ideal S150x128 .bf16) (x6 : Vec Ideal S1x128 .f32) (x7 : Vec Ideal S128x80 .bf16) (x8 : Vec Ideal S1x80 .f32) (x9 : Vec Ideal S80x48 .bf16) (x10 : Vec Ideal S1x48 .f32) : FVec Ideal S8192x48 .f32 :=
  net x0 (wmat x1) (bvec x2) (wmat x3) (bvec x4) (wmat x5) (bvec x6) (wmat x7) (bvec x8) (wmat x9) (bvec x10)

theorem hz2 : (![0, 0] : Fin 2 → Nat) = fun _ => 0 := funext fun a => by fin_cases a <;> rfl

/-- What trip `k` stores, at a local index `y` of its 2048 rows, is `blockNet` where the trip's rectangle puts `y`:
    row `2048 k + y 0`. The rows the trip loads are those same rows of the staged block. -/
theorem chunk_is_blockNet (x0 : Vec Ideal S8192x203 .f32) (x1 : Vec Ideal S203x175 .bf16) (x2 : Vec Ideal S1x175 .f32) (x3 : Vec Ideal S175x150 .bf16) (x4 : Vec Ideal S1x150 .f32) (x5 : Vec Ideal S150x128 .bf16) (x6 : Vec Ideal S1x128 .f32) (x7 : Vec Ideal S128x80 .bf16) (x8 : Vec Ideal S1x80 .f32) (x9 : Vec Ideal S80x48 .bf16) (x10 : Vec Ideal S1x48 .f32) (k : Fin k0_t1_loop.trips) (y : S2048x48.Idx) :
    k0_pay1 (F := Ideal)
        (k0_pay2 (F := Ideal) (View.ld x0 (Rect.unit (s := S8192x203) (k0_off1 k) S2048x203.size (k0_off1_inb k))) x1 x2 x3 x4 x5 x6 x7)
        (k0_pay3 (F := Ideal) x8) x9 x10 y
      = blockNet x0 x1 x2 x3 x4 x5 x6 x7 x8 x9 x10 ((Rect.unit (s := S8192x48) (k0_off2 k) S2048x48.size (k0_off2_inb k)).emb y) := by
  rw [stored_eq_net]
  obtain ⟨p, q, rfl⟩ : ∃ (p : Fin 2048) (q : Fin 48), y = ix2 p q := ⟨y 0, y 1, eq_ix2 y⟩
  have hk : k.val < 4 := Nat.lt_of_lt_of_le k.isLt k0_t1_abs.2.1
  have hr : 2048 * k.val + p.val < 8192 := by have := p.isLt; omega
  have he : (Rect.unit (s := S8192x48) (k0_off2 k) S2048x48.size (k0_off2_inb k)).emb (ix2 p q)
      = ix2 (⟨2048 * k.val + p.val, hr⟩ : Fin 8192) q := by
    funext a; apply Fin.ext
    match a with
    | ⟨0, _⟩ =>
      show k0_off2 k 0 + 1 * p.val = 2048 * k.val + p.val
      rw [k0_off2_eq]; show 2048 * k.val + 1 * p.val = 2048 * k.val + p.val; omega
    | ⟨1, _⟩ =>
      show k0_off2 k 1 + 1 * q.val = q.val
      rw [k0_off2_eq]; show 0 + 1 * q.val = q.val; omega
  rw [he]
  refine net_apply_of_row _ x0 _ _ _ _ _ _ _ _ _ _ p (⟨2048 * k.val + p.val, hr⟩ : Fin 8192) q ?_
  funext j
  show x0 ((Rect.unit (s := S8192x203) (k0_off1 k) S2048x203.size (k0_off1_inb k)).toLoadRect.idx (ix2 p j)) = x0 (ix2 (⟨2048 * k.val + p.val, hr⟩ : Fin 8192) j)
  refine congrArg x0 (funext fun a => Fin.ext ?_)
  match a with
  | ⟨0, _⟩ =>
    show k0_off1 k 0 + 1 * p.val = 2048 * k.val + p.val
    rw [k0_off1_eq]; show 2048 * k.val + 1 * p.val = 2048 * k.val + p.val; omega
  | ⟨1, _⟩ =>
    show k0_off1 k 1 + 1 * j.val = j.val
    rw [k0_off1_eq]; show 0 + 1 * j.val = j.val; omega

/-! ## The loop's pieces, and the buffer read back -/

/-- Every piece the loop has written after `n` trips is a piece of `blockNet` of the staged blocks. -/
theorem pieces_are_blockNet (c : Dev nD) (i : grid0.Coords) (arg1 : Memref sig .tc .vmem S8192x203 .f32) (harg1 : arg1.IsWhole) (arg2 : Memref sig .tc .vmem S203x175 .bf16) (harg2 : arg2.IsWhole) (arg3 : Memref sig .tc .vmem S1x175 .f32) (harg3 : arg3.IsWhole) (arg4 : Memref sig .tc .vmem S175x150 .bf16) (harg4 : arg4.IsWhole) (arg5 : Memref sig .tc .vmem S1x150 .f32) (harg5 : arg5.IsWhole) (arg6 : Memref sig .tc .vmem S150x128 .bf16) (harg6 : arg6.IsWhole) (arg7 : Memref sig .tc .vmem S1x128 .f32) (harg7 : arg7.IsWhole) (arg8 : Memref sig .tc .vmem S128x80 .bf16) (harg8 : arg8.IsWhole) (arg9 : Memref sig .tc .vmem S1x80 .f32) (harg9 : arg9.IsWhole) (arg10 : Memref sig .tc .vmem S80x48 .bf16) (harg10 : arg10.IsWhole) (arg11 : Memref sig .tc .vmem S1x48 .f32) (harg11 : arg11.IsWhole) (arg12 : Memref sig .tc .vmem S8192x48 .f32) (harg12 : arg12.IsWhole)
    (x0 : Vec Ideal S8192x203 .f32) (x1 : Vec Ideal S203x175 .bf16) (x2 : Vec Ideal S1x175 .f32) (x3 : Vec Ideal S175x150 .bf16) (x4 : Vec Ideal S1x150 .f32) (x5 : Vec Ideal S150x128 .bf16) (x6 : Vec Ideal S1x128 .f32) (x7 : Vec Ideal S128x80 .bf16) (x8 : Vec Ideal S1x80 .f32) (x9 : Vec Ideal S80x48 .bf16) (x10 : Vec Ideal S1x48 .f32) :
    ∀ (n : Nat), ∀ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (harg8.unread x7) (harg9.unread x8) (harg10.unread x9) (harg11.unread x10) n,
      ∀ x : p.1.shape.Idx, p.2 x = blockNet x0 x1 x2 x3 x4 x5 x6 x7 x8 x9 x10 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rename_i h
      rcases List.mem_append.mp hp with h1 | h2
      · rw [trip_piece] at h1
        obtain rfl := List.mem_singleton.mp h1
        intro x
        simp only [View.readAt_eq_ld, harg1.read_unread, harg2.read_unread, harg3.read_unread, harg4.read_unread,
          harg5.read_unread, harg6.read_unread, harg7.read_unread, harg8.read_unread, harg9.read_unread,
          harg10.read_unread, harg11.read_unread, View.ld_unit_zero (S := S203x175) hz2, View.ld_unit_zero (S := S1x175) hz2,
          View.ld_unit_zero (S := S175x150) hz2, View.ld_unit_zero (S := S1x150) hz2, View.ld_unit_zero (S := S150x128) hz2,
          View.ld_unit_zero (S := S1x128) hz2, View.ld_unit_zero (S := S128x80) hz2, View.ld_unit_zero (S := S1x80) hz2,
          View.ld_unit_zero (S := S80x48) hz2, View.ld_unit_zero (S := S1x48) hz2]
        exact chunk_is_blockNet x0 x1 x2 x3 x4 x5 x6 x7 x8 x9 x10 ⟨n, h⟩ x
      · exact ih p h2
    · exact ih p hp

/-- After the body at a grid point, the output's staging buffer reads `blockNet` of the staged blocks. -/
theorem out_eq_blockNet (c : Dev nD) (i : grid0.Coords) (arg1 : Memref sig .tc .vmem S8192x203 .f32) (harg1 : arg1.IsWhole) (arg2 : Memref sig .tc .vmem S203x175 .bf16) (harg2 : arg2.IsWhole) (arg3 : Memref sig .tc .vmem S1x175 .f32) (harg3 : arg3.IsWhole) (arg4 : Memref sig .tc .vmem S175x150 .bf16) (harg4 : arg4.IsWhole) (arg5 : Memref sig .tc .vmem S1x150 .f32) (harg5 : arg5.IsWhole) (arg6 : Memref sig .tc .vmem S150x128 .bf16) (harg6 : arg6.IsWhole) (arg7 : Memref sig .tc .vmem S1x128 .f32) (harg7 : arg7.IsWhole) (arg8 : Memref sig .tc .vmem S128x80 .bf16) (harg8 : arg8.IsWhole) (arg9 : Memref sig .tc .vmem S1x80 .f32) (harg9 : arg9.IsWhole) (arg10 : Memref sig .tc .vmem S80x48 .bf16) (harg10 : arg10.IsWhole) (arg11 : Memref sig .tc .vmem S1x48 .f32) (harg11 : arg11.IsWhole) (arg12 : Memref sig .tc .vmem S8192x48 .f32) (harg12 : arg12.IsWhole)
    (x0 : Vec Ideal S8192x203 .f32) (x1 : Vec Ideal S203x175 .bf16) (x2 : Vec Ideal S1x175 .f32) (x3 : Vec Ideal S175x150 .bf16) (x4 : Vec Ideal S1x150 .f32) (x5 : Vec Ideal S150x128 .bf16) (x6 : Vec Ideal S1x128 .f32) (x7 : Vec Ideal S128x80 .bf16) (x8 : Vec Ideal S1x80 .f32) (x9 : Vec Ideal S80x48 .bf16) (x10 : Vec Ideal S1x48 .f32) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = blockNet x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  funext y
  refine View.canon_apply_of_pieces (blockNet x0 x1 x2 x3 x4 x5 x6 x7 x8 x9 x10) _ ?_ y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)
  unfold kernelRun0_A
  dsimp only
  exact pieces_are_blockNet c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 _

end Cert.KernelIdeal.BlockValue

end
-- ==== Proof.ArrayValue.lean ====
/-
  The kernel's result array is the network of its arguments.

  The pipeline stages, at grid point `t`, rows `8192 t … 8192 t + 8191` of `x` and — whole, at every point — the ten
  arrays the host wrote before the call: each weight transposed (its format change the identity here) and each bias
  laid as one row. Read as its layer's output-major matrix a staged weight block is the weight ARGUMENT's own matrix,
  and a staged bias row is the bias argument's vector. So what point `t` writes back — the network on its 8192 staged
  rows — is, row by row, the network of the arguments on rows `8192 t …`: block `t` of ONE function `argNet` of the
  eleven arguments. The sixteen blocks tile the 131072 rows, so the result array ends holding `argNet`.
-/
import proofs.«406686_j54193897341343_3_alg».proof.Proof.Gen.KernelIdeal.Value
import proofs.«406686_j54193897341343_3_alg».proof.Proof.BlockValue
import Idealize.ShloMosaic.Lib.StableHlo.Run
import Idealize.ShloMosaic.Lib.Pipeline.Value

set_option maxRecDepth 16384

noncomputable section

namespace Cert.KernelIdeal.ArrayValue

open Cert.KernelIdeal Cert.KernelIdeal.Gen Cert.KernelIdeal.ChunkValue Cert.KernelIdeal.BlockValue
open Idealize.ShloMosaic Idealize.ShloMosaic.TcCoe Idealize.SL.Sem Idealize.ShloMosaic.StableHlo
open Idealize.ShloMosaic.Pipeline (Dat)
open Idealize.ShloMosaic.ValueIdx Cert.DenseLayer Cert.Mlp

/-! ## A block of rows of the network -/

/-- If `xb` holds rows `8192 t …` of `X`, then the network on `xb` at a local index is the network on `X` at the
    index `8192 t` rows further down, same column. -/
theorem net_block (X : FVec Ideal S131072x203 .f32) (xb : FVec Ideal S8192x203 .f32)
    (w1 : Fin 175 → Fin 203 → EReal) (b1 : Fin 175 → EReal) (w2 : Fin 150 → Fin 175 → EReal) (b2 : Fin 150 → EReal)
    (w3 : Fin 128 → Fin 150 → EReal) (b3 : Fin 128 → EReal) (w4 : Fin 80 → Fin 128 → EReal) (b4 : Fin 80 → EReal)
    (w5 : Fin 48 → Fin 80 → EReal) (b5 : Fin 48 → EReal) (tv : Nat)
    (hx : ∀ (p : Fin 8192) (hr : 8192 * tv + p.val < 131072),
      row (φ := .f32) xb p = row (φ := .f32) X (⟨8192 * tv + p.val, hr⟩ : Fin 131072))
    (j : S8192x48.Idx) (i : S131072x48.Idx) (h0 : (i 0).val = 8192 * tv + (j 0).val) (h1 : (i 1).val = (j 1).val) :
    net xb w1 b1 w2 b2 w3 b3 w4 b4 w5 b5 j = net X w1 b1 w2 b2 w3 b3 w4 b4 w5 b5 i := by
  obtain ⟨p, q, rfl⟩ : ∃ (p : Fin 8192) (q : Fin 48), j = ix2 p q := ⟨j 0, j 1, eq_ix2 j⟩
  obtain ⟨r, q', rfl⟩ : ∃ (r : Fin 131072) (q' : Fin 48), i = ix2 r q' := ⟨i 0, i 1, eq_ix2 i⟩
  have hq : q' = q := Fin.ext h1
  subst hq
  have hrv : r.val = 8192 * tv + p.val := h0
  have hr : 8192 * tv + p.val < 131072 := by have := r.isLt; omega
  have hre : r = (⟨8192 * tv + p.val, hr⟩ : Fin 131072) := Fin.ext hrv
  rw [hre]
  exact net_apply_of_row _ _ _ _ _ _ _ _ _ _ _ _ p _ q' (hx p hr)

variable (m : (ℓ : Loc nD τ sig) → Buf (Elt Ideal) ℓ) (ρ : Dev nD → PrngReg)

/-- The network of the eleven argument arrays, each weight read as its output-major matrix, each bias as its vector. -/
abbrev argNet (c : Dev nD) : FVec Ideal S131072x48 .f32 :=
  net (m ((c : Thread nD τ).loc main_arg0)) (fun n k => (m ((c : Thread nD τ).loc main_arg1)) (ix2 n k)) (fun n => (m ((c : Thread nD τ).loc main_arg2)) (ix1 n)) (fun n k => (m ((c : Thread nD τ).loc main_arg3)) (ix2 n k)) (fun n => (m ((c : Thread nD τ).loc main_arg4)) (ix1 n)) (fun n k => (m ((c : Thread nD τ).loc main_arg5)) (ix2 n k)) (fun n => (m ((c : Thread nD τ).loc main_arg6)) (ix1 n)) (fun n k => (m ((c : Thread nD τ).loc main_arg7)) (ix2 n k)) (fun n => (m ((c : Thread nD τ).loc main_arg8)) (ix1 n)) (fun n k => (m ((c : Thread nD τ).loc main_arg9)) (ix2 n k)) (fun n => (m ((c : Thread nD τ).loc main_arg10)) (ix1 n))

/-! ## The staged blocks, by their literal types -/

abbrev blk0 (c : Dev nD) (t : Fin cfg0.N) : Vec Ideal S8192x203 .f32 := iblk m c 0 t
abbrev blk1 (c : Dev nD) (t : Fin cfg0.N) : Vec Ideal S203x175 .bf16 := iblk m c 1 t
abbrev blk2 (c : Dev nD) (t : Fin cfg0.N) : Vec Ideal S1x175 .f32 := iblk m c 2 t
abbrev blk3 (c : Dev nD) (t : Fin cfg0.N) : Vec Ideal S175x150 .bf16 := iblk m c 3 t
abbrev blk4 (c : Dev nD) (t : Fin cfg0.N) : Vec Ideal S1x150 .f32 := iblk m c 4 t
abbrev blk5 (c : Dev nD) (t : Fin cfg0.N) : Vec Ideal S150x128 .bf16 := iblk m c 5 t
abbrev blk6 (c : Dev nD) (t : Fin cfg0.N) : Vec Ideal S1x128 .f32 := iblk m c 6 t
abbrev blk7 (c : Dev nD) (t : Fin cfg0.N) : Vec Ideal S128x80 .bf16 := iblk m c 7 t
abbrev blk8 (c : Dev nD) (t : Fin cfg0.N) : Vec Ideal S1x80 .f32 := iblk m c 8 t
abbrev blk9 (c : Dev nD) (t : Fin cfg0.N) : Vec Ideal S80x48 .bf16 := iblk m c 9 t
abbrev blk10 (c : Dev nD) (t : Fin cfg0.N) : Vec Ideal S1x48 .f32 := iblk m c 10 t

/-- The printed index maps, decided over the sixteen grid points: `x` and the output move one block of rows per
    point; the ten resident windows stay at block zero. -/
theorem idx_facts : ∀ t : Fin cfg0.N,
    win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Layer 1's weight block, staged whole at every point, is the transposed (and format-changed) weight argument:
    as its layer's output-major matrix it is the argument's own matrix. -/
theorem weight1 (c : Dev nD) (t : Fin cfg0.N) :
    wmat (blk1 m c t) = fun n k => (m ((c : Thread nD τ).loc main_arg1)) (ix2 n k) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S203x175 .bf16) (V m c main_v1)
      (truncf .bf16 (transpose S203x175 [1, 0] (m ((c : Thread nD τ).loc main_arg1)) transposes_S175x203_S203x175_1_0) bitsLt_bf16_f32) := by
    dsimp only [V, hostOps0]; after_results
  funext n k
  show V m c main_v1 (((cfg0.win 1).blk t).view.emb (ix2 k n)) = _
  have hy : ((cfg0.win 1).blk t).view.emb (ix2 k n) = ix2 k n := by
    funext a; apply Fin.ext
    match a with
    | ⟨0, _⟩ => show win0_1.index t (0 : Fin 2) * 203 + 1 * k.val = k.val; rw [f1_0]; omega
    | ⟨1, _⟩ => show win0_1.index t (1 : Fin 2) * 175 + 1 * n.val = n.val; rw [f1_1]; omega
  rw [hy, e]
  exact transpose_kn_apply (m ((c : Thread nD τ).loc main_arg1)) transposes_S175x203_S203x175_1_0 k n

/-- Layer 1's bias block is the bias argument laid as one row. -/
theorem bias1 (c : Dev nD) (t : Fin cfg0.N) :
    bvec (blk2 m c t) = fun n => (m ((c : Thread nD τ).loc main_arg2)) (ix1 n) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S1x175 .f32) (V m c main_v2) (shapeCast S1x175 (m ((c : Thread nD τ).loc main_arg2)) shapeCasts_S175_S1x175) := by
    dsimp only [V, hostOps0]; after_results; rfl
  funext n
  show V m c main_v2 (((cfg0.win 2).blk t).view.emb (ix2 (0 : Fin 1) n)) = _
  have hy : ((cfg0.win 2).blk t).view.emb (ix2 (0 : Fin 1) n) = ix2 (0 : Fin 1) n := by
    funext a; apply Fin.ext
    match a with
    | ⟨0, _⟩ => show win0_2.index t (0 : Fin 2) * 1 + 1 * 0 = 0; rw [f2_0]
    | ⟨1, _⟩ => show win0_2.index t (1 : Fin 2) * 175 + 1 * n.val = n.val; rw [f2_1]; omega
  rw [hy, e]
  exact shapeCast_apply _ _ (ix2 (0 : Fin 1) n) (ix1 n) (by
    rw [Shape.rowMajor_val_two, Shape.rowMajor_val_one]; show n.val = 0 * 175 + n.val; omega)

/-- Layer 2's weight block, staged whole at every point, is the transposed (and format-changed) weight argument:
    as its layer's output-major matrix it is the argument's own matrix. -/
theorem weight2 (c : Dev nD) (t : Fin cfg0.N) :
    wmat (blk3 m c t) = fun n k => (m ((c : Thread nD τ).loc main_arg3)) (ix2 n k) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S175x150 .bf16) (V m c main_v4)
      (truncf .bf16 (transpose S175x150 [1, 0] (m ((c : Thread nD τ).loc main_arg3)) transposes_S150x175_S175x150_1_0) bitsLt_bf16_f32) := by
    dsimp only [V, hostOps0]; after_results
  funext n k
  show V m c main_v4 (((cfg0.win 3).blk t).view.emb (ix2 k n)) = _
  have hy : ((cfg0.win 3).blk t).view.emb (ix2 k n) = ix2 k n := by
    funext a; apply Fin.ext
    match a with
    | ⟨0, _⟩ => show win0_3.index t (0 : Fin 2) * 175 + 1 * k.val = k.val; rw [f3_0]; omega
    | ⟨1, _⟩ => show win0_3.index t (1 : Fin 2) * 150 + 1 * n.val = n.val; rw [f3_1]; omega
  rw [hy, e]
  exact transpose_kn_apply (m ((c : Thread nD τ).loc main_arg3)) transposes_S150x175_S175x150_1_0 k n

/-- Layer 2's bias block is the bias argument laid as one row. -/
theorem bias2 (c : Dev nD) (t : Fin cfg0.N) :
    bvec (blk4 m c t) = fun n => (m ((c : Thread nD τ).loc main_arg4)) (ix1 n) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S1x150 .f32) (V m c main_v5) (shapeCast S1x150 (m ((c : Thread nD τ).loc main_arg4)) shapeCasts_S150_S1x150) := by
    dsimp only [V, hostOps0]; after_results; rfl
  funext n
  show V m c main_v5 (((cfg0.win 4).blk t).view.emb (ix2 (0 : Fin 1) n)) = _
  have hy : ((cfg0.win 4).blk t).view.emb (ix2 (0 : Fin 1) n) = ix2 (0 : Fin 1) n := by
    funext a; apply Fin.ext
    match a with
    | ⟨0, _⟩ => show win0_4.index t (0 : Fin 2) * 1 + 1 * 0 = 0; rw [f4_0]
    | ⟨1, _⟩ => show win0_4.index t (1 : Fin 2) * 150 + 1 * n.val = n.val; rw [f4_1]; omega
  rw [hy, e]
  exact shapeCast_apply _ _ (ix2 (0 : Fin 1) n) (ix1 n) (by
    rw [Shape.rowMajor_val_two, Shape.rowMajor_val_one]; show n.val = 0 * 150 + n.val; omega)

/-- Layer 3's weight block, staged whole at every point, is the transposed (and format-changed) weight argument:
    as its layer's output-major matrix it is the argument's own matrix. -/
theorem weight3 (c : Dev nD) (t : Fin cfg0.N) :
    wmat (blk5 m c t) = fun n k => (m ((c : Thread nD τ).loc main_arg5)) (ix2 n k) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S150x128 .bf16) (V m c main_v7)
      (truncf .bf16 (transpose S150x128 [1, 0] (m ((c : Thread nD τ).loc main_arg5)) transposes_S128x150_S150x128_1_0) bitsLt_bf16_f32) := by
    dsimp only [V, hostOps0]; after_results
  funext n k
  show V m c main_v7 (((cfg0.win 5).blk t).view.emb (ix2 k n)) = _
  have hy : ((cfg0.win 5).blk t).view.emb (ix2 k n) = ix2 k n := by
    funext a; apply Fin.ext
    match a with
    | ⟨0, _⟩ => show win0_5.index t (0 : Fin 2) * 150 + 1 * k.val = k.val; rw [f5_0]; omega
    | ⟨1, _⟩ => show win0_5.index t (1 : Fin 2) * 128 + 1 * n.val = n.val; rw [f5_1]; omega
  rw [hy, e]
  exact transpose_kn_apply (m ((c : Thread nD τ).loc main_arg5)) transposes_S128x150_S150x128_1_0 k n

/-- Layer 3's bias block is the bias argument laid as one row. -/
theorem bias3 (c : Dev nD) (t : Fin cfg0.N) :
    bvec (blk6 m c t) = fun n => (m ((c : Thread nD τ).loc main_arg6)) (ix1 n) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S1x128 .f32) (V m c main_v8) (shapeCast S1x128 (m ((c : Thread nD τ).loc main_arg6)) shapeCasts_S128_S1x128) := by
    dsimp only [V, hostOps0]; after_results; rfl
  funext n
  show V m c main_v8 (((cfg0.win 6).blk t).view.emb (ix2 (0 : Fin 1) n)) = _
  have hy : ((cfg0.win 6).blk t).view.emb (ix2 (0 : Fin 1) n) = ix2 (0 : Fin 1) n := by
    funext a; apply Fin.ext
    match a with
    | ⟨0, _⟩ => show win0_6.index t (0 : Fin 2) * 1 + 1 * 0 = 0; rw [f6_0]
    | ⟨1, _⟩ => show win0_6.index t (1 : Fin 2) * 128 + 1 * n.val = n.val; rw [f6_1]; omega
  rw [hy, e]
  exact shapeCast_apply _ _ (ix2 (0 : Fin 1) n) (ix1 n) (by
    rw [Shape.rowMajor_val_two, Shape.rowMajor_val_one]; show n.val = 0 * 128 + n.val; omega)

/-- Layer 4's weight block, staged whole at every point, is the transposed (and format-changed) weight argument:
    as its layer's output-major matrix it is the argument's own matrix. -/
theorem weight4 (c : Dev nD) (t : Fin cfg0.N) :
    wmat (blk7 m c t) = fun n k => (m ((c : Thread nD τ).loc main_arg7)) (ix2 n k) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S128x80 .bf16) (V m c main_v10)
      (truncf .bf16 (transpose S128x80 [1, 0] (m ((c : Thread nD τ).loc main_arg7)) transposes_S80x128_S128x80_1_0) bitsLt_bf16_f32) := by
    dsimp only [V, hostOps0]; after_results
  funext n k
  show V m c main_v10 (((cfg0.win 7).blk t).view.emb (ix2 k n)) = _
  have hy : ((cfg0.win 7).blk t).view.emb (ix2 k n) = ix2 k n := by
    funext a; apply Fin.ext
    match a with
    | ⟨0, _⟩ => show win0_7.index t (0 : Fin 2) * 128 + 1 * k.val = k.val; rw [f7_0]; omega
    | ⟨1, _⟩ => show win0_7.index t (1 : Fin 2) * 80 + 1 * n.val = n.val; rw [f7_1]; omega
  rw [hy, e]
  exact transpose_kn_apply (m ((c : Thread nD τ).loc main_arg7)) transposes_S80x128_S128x80_1_0 k n

/-- Layer 4's bias block is the bias argument laid as one row. -/
theorem bias4 (c : Dev nD) (t : Fin cfg0.N) :
    bvec (blk8 m c t) = fun n => (m ((c : Thread nD τ).loc main_arg8)) (ix1 n) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S1x80 .f32) (V m c main_v11) (shapeCast S1x80 (m ((c : Thread nD τ).loc main_arg8)) shapeCasts_S80_S1x80) := by
    dsimp only [V, hostOps0]; after_results; rfl
  funext n
  show V m c main_v11 (((cfg0.win 8).blk t).view.emb (ix2 (0 : Fin 1) n)) = _
  have hy : ((cfg0.win 8).blk t).view.emb (ix2 (0 : Fin 1) n) = ix2 (0 : Fin 1) n := by
    funext a; apply Fin.ext
    match a with
    | ⟨0, _⟩ => show win0_8.index t (0 : Fin 2) * 1 + 1 * 0 = 0; rw [f8_0]
    | ⟨1, _⟩ => show win0_8.index t (1 : Fin 2) * 80 + 1 * n.val = n.val; rw [f8_1]; omega
  rw [hy, e]
  exact shapeCast_apply _ _ (ix2 (0 : Fin 1) n) (ix1 n) (by
    rw [Shape.rowMajor_val_two, Shape.rowMajor_val_one]; show n.val = 0 * 80 + n.val; omega)

/-- Layer 5's weight block, staged whole at every point, is the transposed (and format-changed) weight argument:
    as its layer's output-major matrix it is the argument's own matrix. -/
theorem weight5 (c : Dev nD) (t : Fin cfg0.N) :
    wmat (blk9 m c t) = fun n k => (m ((c : Thread nD τ).loc main_arg9)) (ix2 n k) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S80x48 .bf16) (V m c main_v13)
      (truncf .bf16 (transpose S80x48 [1, 0] (m ((c : Thread nD τ).loc main_arg9)) transposes_S48x80_S80x48_1_0) bitsLt_bf16_f32) := by
    dsimp only [V, hostOps0]; after_results
  funext n k
  show V m c main_v13 (((cfg0.win 9).blk t).view.emb (ix2 k n)) = _
  have hy : ((cfg0.win 9).blk t).view.emb (ix2 k n) = ix2 k n := by
    funext a; apply Fin.ext
    match a with
    | ⟨0, _⟩ => show win0_9.index t (0 : Fin 2) * 80 + 1 * k.val = k.val; rw [f9_0]; omega
    | ⟨1, _⟩ => show win0_9.index t (1 : Fin 2) * 48 + 1 * n.val = n.val; rw [f9_1]; omega
  rw [hy, e]
  exact transpose_kn_apply (m ((c : Thread nD τ).loc main_arg9)) transposes_S48x80_S80x48_1_0 k n

/-- Layer 5's bias block is the bias argument laid as one row. -/
theorem bias5 (c : Dev nD) (t : Fin cfg0.N) :
    bvec (blk10 m c t) = fun n => (m ((c : Thread nD τ).loc main_arg10)) (ix1 n) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e : @Eq (FVec Ideal S1x48 .f32) (V m c main_v14) (shapeCast S1x48 (m ((c : Thread nD τ).loc main_arg10)) shapeCasts_S48_S1x48) := by
    dsimp only [V, hostOps0]; after_results; rfl
  funext n
  show V m c main_v14 (((cfg0.win 10).blk t).view.emb (ix2 (0 : Fin 1) n)) = _
  have hy : ((cfg0.win 10).blk t).view.emb (ix2 (0 : Fin 1) n) = ix2 (0 : Fin 1) n := by
    funext a; apply Fin.ext
    match a with
    | ⟨0, _⟩ => show win0_10.index t (0 : Fin 2) * 1 + 1 * 0 = 0; rw [f10_0]
    | ⟨1, _⟩ => show win0_10.index t (1 : Fin 2) * 48 + 1 * n.val = n.val; rw [f10_1]; omega
  rw [hy, e]
  exact shapeCast_apply _ _ (ix2 (0 : Fin 1) n) (ix1 n) (by
    rw [Shape.rowMajor_val_two, Shape.rowMajor_val_one]; show n.val = 0 * 48 + n.val; omega)

/-- The staged `x` block at point `t` is rows `8192 t …` of the argument. -/
theorem xrows (c : Dev nD) (t : Fin cfg0.N) (p : Fin 8192) (hr : 8192 * t.val + p.val < 131072) :
    row (φ := .f32) (blk0 m c t) p = row (φ := .f32) (m ((c : Thread nD τ).loc main_arg0)) (⟨8192 * t.val + p.val, hr⟩ : Fin 131072) := by
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  funext k
  show V m c main_arg0 (((cfg0.win 0).blk t).view.emb (ix2 p k)) = _
  rw [V_main_arg0]
  refine congrArg _ (funext fun a => Fin.ext ?_)
  match a with
  | ⟨0, _⟩ => show win0_0.index t (0 : Fin 2) * 8192 + 1 * p.val = 8192 * t.val + p.val; rw [f0_0]; omega
  | ⟨1, _⟩ => show win0_0.index t (1 : Fin 2) * 203 + 1 * k.val = k.val; rw [f0_1]; omega

/-! ## What a point writes back, and the array after the run -/

/-- WHAT POINT `t` WRITES BACK is block `t` of `argNet`. -/
theorem flushed_eq (c : Dev nD) (t : Fin cfg0.N) :
    (dats m 0 c).flushed 11 t = ((cfg0.win 11).blk t).view.read (Elt Ideal) (argNet m c) := by
  rw [Value.flushed11_A, out_eq_blockNet c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)]
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  funext j
  show net (blk0 m c t) (wmat (blk1 m c t)) (bvec (blk2 m c t)) (wmat (blk3 m c t)) (bvec (blk4 m c t))
      (wmat (blk5 m c t)) (bvec (blk6 m c t)) (wmat (blk7 m c t)) (bvec (blk8 m c t)) (wmat (blk9 m c t))
      (bvec (blk10 m c t)) j = argNet m c (((cfg0.win 11).blk t).view.emb j)
  rw [weight1 m c t, bias1 m c t, weight2 m c t, bias2 m c t, weight3 m c t, bias3 m c t, weight4 m c t, bias4 m c t,
    weight5 m c t, bias5 m c t]
  refine net_block _ (blk0 m c t) _ _ _ _ _ _ _ _ _ _ t.val (fun p hr => xrows m c t p hr) j
    (((cfg0.win 11).blk t).view.emb j) ?_ ?_
  · show win0_11.index t (0 : Fin 2) * 8192 + 1 * (j 0).val = 8192 * t.val + (j 0).val
    rw [f11_0]; omega
  · show win0_11.index t (1 : Fin 2) * 48 + 1 * (j 1).val = (j 1).val
    rw [f11_1]; omega

/-- An index of the result array is in point `t`'s block iff each coordinate is in the block's range on its axis. -/
theorem mem_blk (t : Fin cfg0.N) (i : S131072x48.Idx) :
    i ∈ ((cfg0.win 11).blk t).view.set ↔ ∀ a : Fin 2, win0_11.index t a * S8192x48.size a ≤ (i a).val ∧ (i a).val < win0_11.index t a * S8192x48.size a + S8192x48.size a := by
  show i ∈ ((View.whole main_v15).slice (win0_11.rect t)).set ↔ _
  rw [View.set_slice_whole, Rect.mem_set_unit]
  exact Iff.rfl

/-- Every index of the result array is in the block of the point that holds its row: point `row / 8192`. -/
theorem covered (i : S131072x48.Idx) :
    ∃ t : Fin cfg0.N, (cfg0.win 11).flush t = true ∧ i ∈ ((cfg0.win 11).blk t).view.set := by
  have hi0 : (i 0).val < 131072 := (i 0).isLt
  have hi1 : (i 1).val < 48 := (i 1).isLt
  let t : Fin cfg0.N := ⟨(i 0).val / 8192, by show _ < grid0.N; rw [N_0]; omega⟩
  obtain ⟨f0_0, f0_1, f11_0, f11_1, f1_0, f1_1, f2_0, f2_1, f3_0, f3_1, f4_0, f4_1, f5_0, f5_1, f6_0, f6_1, f7_0, f7_1, f8_0, f8_1, f9_0, f9_1, f10_0, f10_1⟩ := idx_facts t
  have e0 : win0_11.index t (0 : Fin 2) = (i 0).val / 8192 := f11_0
  refine ⟨t, flush0_11 t, ?_⟩
  rw [mem_blk]
  intro a
  match a with
  | ⟨0, _⟩ => show win0_11.index t (0 : Fin 2) * 8192 ≤ (i 0).val ∧ (i 0).val < win0_11.index t (0 : Fin 2) * 8192 + 8192; omega
  | ⟨1, _⟩ => show win0_11.index t (1 : Fin 2) * 48 ≤ (i 1).val ∧ (i 1).val < win0_11.index t (1 : Fin 2) * 48 + 48; omega

/-- THE ARRAY after the run: `argNet`. -/
theorem final (c : Dev nD) : (dats m 0 c).arrAt 11 cfg0.N = argNet m c :=
  (dats m 0 c).arrAt_eq_of_cover 11 (argNet m c) (fun t _ => flushed_eq m c t) covered

/-- The kernel's run with its result array at `argNet` of the arguments, the arguments unchanged. -/
theorem run : θ_run defs (onTc (τ := τ) (main (F := Ideal))) ⟨m, fun _ => 0, ρ⟩ fun r => ∀ c : Dev nD,
      r.2.mem ((c : Thread nD τ).loc main_v15) = argNet m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.lean ====
/-
  A five-layer perceptron, 203 → 175 → 150 → 128 → 80 → 48 with `tanh` after each of the first four layers, on
  131072 rows: a pipelined kernel against the plain `tanh(x @ W.T + b)` chain.

  At the extended reals both programs compute ONE function of the eleven arguments, `Cert.Mlp.net`: row `r` of the
  result is the image of row `r` of `x` under the five layers, each entry a plain sum over the previous layer's
  width plus a bias, the weights read output-major.

  * The reference is that chain literally (Proof/RefNet.lean): `dot_general` with the transposed weight and the bias
    broadcast down the rows is the dense layer on every row (Proof/LibDenseLayer.lean).
  * The kernel transposes the weights and lays the biases as rows on the host, changes formats to bf16 (the identity
    on the extended reals), and on a grid of sixteen points stages 8192 rows of `x` at a time; its body walks the
    staged rows in four chunks of 2048, each a product into a zero accumulator per layer — the same sums
    (Proof/ChunkValue.lean). Rows are mapped independently, so the chunks are chunks, and the blocks blocks, of the one
    function: the staging buffer after the loop (Proof/BlockValue.lean) and the result array after the run
    (Proof/ArrayValue.lean) hold it.

  No sum is reordered and nothing is distributed or cancelled, so the inputs' finiteness is never used. The three
  frames are the generated ones (the reference's is its generated run with the result dropped); the idealization
  rewrote nothing, so `preserves` is `True`.
-/
import proofs.«406686_j54193897341343_3_alg».proof.Defs
import proofs.«406686_j54193897341343_3_alg».proof.Proof.Gen.Kernel
import proofs.«406686_j54193897341343_3_alg».proof.Proof.Gen.Kernel.Skeleton
import proofs.«406686_j54193897341343_3_alg».proof.Proof.Gen.Kernel.Loops
import proofs.«406686_j54193897341343_3_alg».proof.Proof.Gen.Kernel.Launch
import proofs.«406686_j54193897341343_3_alg».proof.Proof.Gen.Kernel.Points
import proofs.«406686_j54193897341343_3_alg».proof.Proof.Gen.Kernel.Frame
import proofs.«406686_j54193897341343_3_alg».proof.Proof.Gen.KernelIdeal
import proofs.«406686_j54193897341343_3_alg».proof.Proof.Gen.KernelIdeal.Skeleton
import proofs.«406686_j54193897341343_3_alg».proof.Proof.Gen.KernelIdeal.Loops
import proofs.«406686_j54193897341343_3_alg».proof.Proof.Gen.KernelIdeal.Launch
import proofs.«406686_j54193897341343_3_alg».proof.Proof.Gen.KernelIdeal.Points
import proofs.«406686_j54193897341343_3_alg».proof.Proof.Gen.KernelIdeal.Frame
import proofs.«406686_j54193897341343_3_alg».proof.Proof.Gen.ReferenceIdeal
import proofs.«406686_j54193897341343_3_alg».proof.Proof.Gen.Pre_finite_inputs
import proofs.«406686_j54193897341343_3_alg».proof.Proof.Gen.KernelIdeal.Value
import proofs.«406686_j54193897341343_3_alg».proof.Proof.Gen.ReferenceIdeal.Run
import proofs.«406686_j54193897341343_3_alg».proof.Proof.Gen.ReferenceIdeal.Read
import proofs.«406686_j54193897341343_3_alg».proof.Proof.Mlp
import proofs.«406686_j54193897341343_3_alg».proof.Proof.RefNet
import proofs.«406686_j54193897341343_3_alg».proof.Proof.ArrayValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the network of the arguments in the result array; the arguments agree, so the results do. -/
theorem algebraic : Cert.algebraic_KernelIdeal_ReferenceIdeal := by
  intro m ρ m' ρ' _ hagree
  refine ⟨fun c => Cert.KernelIdeal.ArrayValue.argNet m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v28_eq, Cert.ReferenceIdeal.RefValue.result_eq_net,
    h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
